-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x9 : Shape := ⟨2, ![50000, 9]⟩
abbrev S2x150000 : Shape := ⟨2, ![2, 150000]⟩
abbrev S150000x512 : Shape := ⟨2, ![150000, 512]⟩
abbrev S64x16 : Shape := ⟨2, ![64, 16]⟩
abbrev S50000 : Shape := ⟨1, ![50000]⟩
abbrev S521x512 : Shape := ⟨2, ![521, 512]⟩
abbrev S512 : Shape := ⟨1, ![512]⟩
abbrev S512x512 : Shape := ⟨2, ![512, 512]⟩
abbrev S537x512 : Shape := ⟨2, ![537, 512]⟩
abbrev S512x1 : Shape := ⟨2, ![512, 1]⟩
abbrev S1 : Shape := ⟨1, ![1]⟩
abbrev S_ : Shape := ⟨0, ![]⟩
abbrev S1x150000 : Shape := ⟨2, ![1, 150000]⟩
abbrev S150000 : Shape := ⟨1, ![150000]⟩

class Facts : Prop where
  bcast_S_S50000x9 : S_.BroadcastsInDim S50000x9 (![] : Fin 0 → Fin S50000x9.rank)
  reducesTo_S50000x9_S_d0_1 : S50000x9.ReducesTo [0, 1] S_
  h_S_ : 0 < S_.numel
  bcast_S_S150000x512 : S_.BroadcastsInDim S150000x512 (![] : Fin 0 → Fin S150000x512.rank)
  reducesTo_S150000x512_S_d0_1 : S150000x512.ReducesTo [0, 1] S_
  bcast_S_S64x16 : S_.BroadcastsInDim S64x16 (![] : Fin 0 → Fin S64x16.rank)
  reducesTo_S64x16_S_d0_1 : S64x16.ReducesTo [0, 1] S_
  bcast_S_S521x512 : S_.BroadcastsInDim S521x512 (![] : Fin 0 → Fin S521x512.rank)
  reducesTo_S521x512_S_d0_1 : S521x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S537x512 : S_.BroadcastsInDim S537x512 (![] : Fin 0 → Fin S537x512.rank)
  reducesTo_S537x512_S_d0_1 : S537x512.ReducesTo [0, 1] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_
  slices_S2x150000_S1x150000_1_0 : S2x150000.Slices ![1, 0] S1x150000
  shapeCasts_S1x150000_S150000 : S1x150000.ShapeCasts S150000
  bcast_S_S150000 : S_.BroadcastsInDim S150000 (![] : Fin 0 → Fin S150000.rank)
  reducesTo_S150000_S_d0 : S150000.ReducesTo [0] S_
  bcast_S_S50000 : S_.BroadcastsInDim S50000 (![] : Fin 0 → Fin S50000.rank)
  reducesTo_S50000_S_d0 : S50000.ReducesTo [0] S_

variable [Facts]

def fn_part4 {F : FTy → Type} [FloatOps F] (main_arg4 : IVec S50000 32) (main_v65 : IVec S_ 1) (main_v67 : IVec S50000 1) (main_c_25 : IVec S_ 1) : IVec S_ 1 :=
  let main_v68 : IVec S_ 1 := (fun x v => Host.reduce IntOp.andi x v reducesTo_S50000_S_d0 h_S_) main_v67 main_c_25
  let main_v69 : IVec S_ 1 := andi main_v65 main_v68
  let main_c_26 : IVec S_ 32 := constantI S_ 32 64#32
  let main_v70 : IVec S50000 32 := broadcastInDim S50000 ![] bcast_S_S50000 main_c_26
  let main_v71 : IVec S50000 1 := cmpi .slt main_arg4 main_v70
  let main_c_27 : IVec S_ 1 := constantI S_ 1 1#1
  let main_v72 : IVec S_ 1 := (fun x v => Host.reduce IntOp.andi x v reducesTo_S50000_S_d0 h_S_) main_v71 main_c_27
  let main_v73 : IVec S_ 1 := andi main_v69 main_v72
  main_v73

def fn_part3 {F : FTy → Type} [FloatOps F] (main_arg1 : IVec S2x150000 32) (main_arg4 : IVec S50000 32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : IVec S1x150000 32 := (extractStridedSlice S1x150000 ![1, 0] · slices_S2x150000_S1x150000_1_0) main_arg1
  let main_v55 : IVec S150000 32 := shapeCast S150000 main_v54 shapeCasts_S1x150000_S150000
  let main_c_20 : IVec S_ 32 := constantI S_ 32 4294917296#32
  let main_v56 : IVec S150000 32 := broadcastInDim S150000 ![] bcast_S_S150000 main_c_20
  let main_v57 : IVec S150000 1 := cmpi .sge main_v55 main_v56
  let main_c_21 : IVec S_ 1 := constantI S_ 1 1#1
  let main_v58 : IVec S_ 1 := (fun x v => Host.reduce IntOp.andi x v reducesTo_S150000_S_d0 h_S_) main_v57 main_c_21
  let main_v59 : IVec S_ 1 := andi main_v53 main_v58
  let main_v60 : IVec S1x150000 32 := (extractStridedSlice S1x150000 ![1, 0] · slices_S2x150000_S1x150000_1_0) main_arg1
  let main_v61 : IVec S150000 32 := shapeCast S150000 main_v60 shapeCasts_S1x150000_S150000
  let main_c_22 : IVec S_ 32 := constantI S_ 32 50000#32
  let main_v62 : IVec S150000 32 := broadcastInDim S150000 ![] bcast_S_S150000 main_c_22
  let main_v63 : IVec S150000 1 := cmpi .slt main_v61 main_v62
  let main_c_23 : IVec S_ 1 := constantI S_ 1 1#1
  let main_v64 : IVec S_ 1 := (fun x v => Host.reduce IntOp.andi x v reducesTo_S150000_S_d0 h_S_) main_v63 main_c_23
  let main_v65 : IVec S_ 1 := andi main_v59 main_v64
  let main_c_24 : IVec S_ 32 := constantI S_ 32 4294967232#32
  let main_v66 : IVec S50000 32 := broadcastInDim S50000 ![] bcast_S_S50000 main_c_24
  let main_v67 : IVec S50000 1 := cmpi .sge main_arg4 main_v66
  let main_c_25 : IVec S_ 1 := constantI S_ 1 1#1
  fn_part4 (F := F) main_arg4 main_v65 main_v67 main_c_25

def fn_part2 {F : FTy → Type} [FloatOps F] (main_arg1 : IVec S2x150000 32) (main_arg4 : IVec S50000 32) (main_arg9 : FVec F S537x512 .f32) (main_arg10 : FVec F S512 .f32) (main_arg11 : FVec F S512x1 .f32) (main_arg12 : FVec F S1 .f32) (main_v33 : IVec S_ 1) : IVec S_ 1 :=
  let main_v34 : FVec F S537x512 .f32 := Host.absf main_arg9
  let main_cst_12 : FVec F S_ .f32 := constant S_ .f32 0x7F800000#32
  let main_v35 : FVec F S537x512 .f32 := broadcastInDim S537x512 ![] bcast_S_S537x512 main_cst_12
  let main_v36 : IVec S537x512 1 := cmpf .olt main_v34 main_v35
  let main_c_13 : IVec S_ 1 := constantI S_ 1 1#1
  let main_v37 : IVec S_ 1 := (fun x v => Host.reduce IntOp.andi x v reducesTo_S537x512_S_d0_1 h_S_) main_v36 main_c_13
  let main_v38 : IVec S_ 1 := andi main_v33 main_v37
  let main_v39 : FVec F S512 .f32 := Host.absf main_arg10
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x1 .f32 := Host.absf main_arg11
  let main_cst_16 : FVec F S_ .f32 := constant S_ .f32 0x7F800000#32
  let main_v45 : FVec F S512x1 .f32 := broadcastInDim S512x1 ![] bcast_S_S512x1 main_cst_16
  let main_v46 : IVec S512x1 1 := cmpf .olt main_v44 main_v45
  let main_c_17 : IVec S_ 1 := constantI S_ 1 1#1
  let main_v47 : IVec S_ 1 := (fun x v => Host.reduce IntOp.andi x v reducesTo_S512x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_arg1 main_arg4 main_v48 main_v49 main_v50

def fn_part1 {F : FTy → Type} [FloatOps F] (main_arg1 : IVec S2x150000 32) (main_arg4 : IVec S50000 32) (main_arg6 : FVec F S512 .f32) (main_arg7 : FVec F S512x512 .f32) (main_arg8 : FVec F S512 .f32) (main_arg9 : FVec F S537x512 .f32) (main_arg10 : FVec F S512 .f32) (main_arg11 : FVec F S512x1 .f32) (main_arg12 : FVec F S1 .f32) (main_v13 : IVec S_ 1) (main_v16 : IVec S521x512 1) : IVec S_ 1 :=
  let main_c_5 : IVec S_ 1 := constantI S_ 1 1#1
  let main_v17 : IVec S_ 1 := (fun x v => Host.reduce IntOp.andi x v reducesTo_S521x512_S_d0_1 h_S_) main_v16 main_c_5
  let main_v18 : IVec S_ 1 := andi main_v13 main_v17
  let main_v19 : FVec F S512 .f32 := Host.absf main_arg6
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg7
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg8
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg1 main_arg4 main_arg9 main_arg10 main_arg11 main_arg12 main_v33

def fn {F : FTy → Type} [FloatOps F] (main_arg0 : FVec F S50000x9 .f32) (main_arg1 : IVec S2x150000 32) (main_arg2 : FVec F S150000x512 .f32) (main_arg3 : FVec F S64x16 .f32) (main_arg4 : IVec S50000 32) (main_arg5 : FVec F S521x512 .f32) (main_arg6 : FVec F S512 .f32) (main_arg7 : FVec F S512x512 .f32) (main_arg8 : FVec F S512 .f32) (main_arg9 : FVec F S537x512 .f32) (main_arg10 : FVec F S512 .f32) (main_arg11 : FVec F S512x1 .f32) (main_arg12 : FVec F S1 .f32) : IVec S_ 1 :=
  let main_v0 : FVec F S50000x9 .f32 := Host.absf main_arg0
  let main_cst : FVec F S_ .f32 := constant S_ .f32 0x7F800000#32
  let main_v1 : FVec F S50000x9 .f32 := broadcastInDim S50000x9 ![] bcast_S_S50000x9 main_cst
  let main_v2 : IVec S50000x9 1 := cmpf .olt main_v0 main_v1
  let main_c : IVec S_ 1 := constantI S_ 1 1#1
  let main_v3 : IVec S_ 1 := (fun x v => Host.reduce IntOp.andi x v reducesTo_S50000x9_S_d0_1 h_S_) main_v2 main_c
  let main_v4 : FVec F S150000x512 .f32 := Host.absf main_arg2
  let main_cst_0 : FVec F S_ .f32 := constant S_ .f32 0x7F800000#32
  let main_v5 : FVec F S150000x512 .f32 := broadcastInDim S150000x512 ![] bcast_S_S150000x512 main_cst_0
  let main_v6 : IVec S150000x512 1 := cmpf .olt main_v4 main_v5
  let main_c_1 : IVec S_ 1 := constantI S_ 1 1#1
  let main_v7 : IVec S_ 1 := (fun x v => Host.reduce IntOp.andi x v reducesTo_S150000x512_S_d0_1 h_S_) main_v6 main_c_1
  let main_v8 : IVec S_ 1 := andi main_v3 main_v7
  let main_v9 : FVec F S64x16 .f32 := Host.absf main_arg3
  let main_cst_2 : FVec F S_ .f32 := constant S_ .f32 0x7F800000#32
  let main_v10 : FVec F S64x16 .f32 := broadcastInDim S64x16 ![] bcast_S_S64x16 main_cst_2
  let main_v11 : IVec S64x16 1 := cmpf .olt main_v9 main_v10
  let main_c_3 : IVec S_ 1 := constantI S_ 1 1#1
  let main_v12 : IVec S_ 1 := (fun x v => Host.reduce IntOp.andi x v reducesTo_S64x16_S_d0_1 h_S_) main_v11 main_c_3
  let main_v13 : IVec S_ 1 := andi main_v8 main_v12
  let main_v14 : FVec F S521x512 .f32 := Host.absf main_arg5
  let main_cst_4 : FVec F S_ .f32 := constant S_ .f32 0x7F800000#32
  let main_v15 : FVec F S521x512 .f32 := broadcastInDim S521x512 ![] bcast_S_S521x512 main_cst_4
  let main_v16 : IVec S521x512 1 := cmpf .olt main_v14 main_v15
  fn_part1 (F := F) main_arg1 main_arg4 main_arg6 main_arg7 main_arg8 main_arg9 main_arg10 main_arg11 main_arg12 main_v13 main_v16
-- ==== Kernel.lean ====
abbrev S50000x9 : Shape := ⟨2, ![50000, 9]⟩
abbrev S2x150000 : Shape := ⟨2, ![2, 150000]⟩
abbrev S150000x512 : Shape := ⟨2, ![150000, 512]⟩
abbrev S64x16 : Shape := ⟨2, ![64, 16]⟩
abbrev S50000 : Shape := ⟨1, ![50000]⟩
abbrev S521x512 : Shape := ⟨2, ![521, 512]⟩
abbrev S512 : Shape := ⟨1, ![512]⟩
abbrev S512x512 : Shape := ⟨2, ![512, 512]⟩
abbrev S537x512 : Shape := ⟨2, ![537, 512]⟩
abbrev S512x1 : Shape := ⟨2, ![512, 1]⟩
abbrev S1 : Shape := ⟨1, ![1]⟩
abbrev S1x150000 : Shape := ⟨2, ![1, 150000]⟩
abbrev S150000 : Shape := ⟨1, ![150000]⟩
abbrev S_ : Shape := ⟨0, ![]⟩
abbrev S150000x1 : Shape := ⟨2, ![150000, 1]⟩
abbrev S1x1 : Shape := ⟨2, ![1, 1]⟩
abbrev S150000x9 : Shape := ⟨2, ![150000, 9]⟩
abbrev S9x512 : Shape := ⟨2, ![9, 512]⟩
abbrev S1x512 : Shape := ⟨2, ![1, 512]⟩
abbrev S2000x9 : Shape := ⟨2, ![2000, 9]⟩
abbrev S2000x512 : Shape := ⟨2, ![2000, 512]⟩
abbrev S50000x512 : Shape := ⟨2, ![50000, 512]⟩
abbrev S50000x1 : Shape := ⟨2, ![50000, 1]⟩
abbrev S50000x16 : Shape := ⟨2, ![50000, 16]⟩
abbrev S16x512 : Shape := ⟨2, ![16, 512]⟩
abbrev S2000x1 : Shape := ⟨2, ![2000, 1]⟩
abbrev S2000x16 : Shape := ⟨2, ![2000, 16]⟩

abbrev nBuf : Space → Nat
  | .hbm => 86
  | .vmem => 27
  | .smem => 0
  | _ => 0

abbrev bufTy : (tb : Table) → Fin (tcTables nBuf tb) → BufTy
  | .hbm, ⟨0, _⟩ => ⟨S50000x9, .f32⟩
  | .hbm, ⟨1, _⟩ => ⟨S2x150000, .i32⟩
  | .hbm, ⟨2, _⟩ => ⟨S150000x512, .f32⟩
  | .hbm, ⟨3, _⟩ => ⟨S64x16, .f32⟩
  | .hbm, ⟨4, _⟩ => ⟨S50000, .i32⟩
  | .hbm, ⟨5, _⟩ => ⟨S521x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S537x512, .f32⟩
  | .hbm, ⟨10, _⟩ => ⟨S512, .f32⟩
  | .hbm, ⟨11, _⟩ => ⟨S512x1, .f32⟩
  | .hbm, ⟨12, _⟩ => ⟨S1, .f32⟩
  | .hbm, ⟨13, _⟩ => ⟨S1x150000, .i32⟩
  | .hbm, ⟨14, _⟩ => ⟨S150000, .i32⟩
  | .hbm, ⟨15, _⟩ => ⟨S1x150000, .i32⟩
  | .hbm, ⟨16, _⟩ => ⟨S150000, .i32⟩
  | .hbm, ⟨17, _⟩ => ⟨S_, .i32⟩
  | .hbm, ⟨18, _⟩ => ⟨S150000, .i32⟩
  | .hbm, ⟨19, _⟩ => ⟨S150000, .i1⟩
  | .hbm, ⟨20, _⟩ => ⟨S_, .i32⟩
  | .hbm, ⟨21, _⟩ => ⟨S150000, .i32⟩
  | .hbm, ⟨22, _⟩ => ⟨S150000, .i32⟩
  | .hbm, ⟨23, _⟩ => ⟨S150000, .i32⟩
  | .hbm, ⟨24, _⟩ => ⟨S150000x1, .i32⟩
  | .hbm, ⟨25, _⟩ => ⟨S1, .i32⟩
  | .hbm, ⟨26, _⟩ => ⟨S_, .i32⟩
  | .hbm, ⟨27, _⟩ => ⟨S150000x1, .i32⟩
  | .hbm, ⟨28, _⟩ => ⟨S150000x1, .i1⟩
  | .hbm, ⟨29, _⟩ => ⟨S1x1, .i32⟩
  | .hbm, ⟨30, _⟩ => ⟨S150000x1, .i32⟩
  | .hbm, ⟨31, _⟩ => ⟨S150000x1, .i1⟩
  | .hbm, ⟨32, _⟩ => ⟨S150000x1, .i1⟩
  | .hbm, ⟨33, _⟩ => ⟨S_, .i1⟩
  | .hbm, ⟨34, _⟩ => ⟨S150000, .i1⟩
  | .hbm, ⟨35, _⟩ => ⟨S150000x9, .f32⟩
  | .hbm, ⟨36, _⟩ => ⟨S150000x9, .i1⟩
  | .hbm, ⟨37, _⟩ => ⟨S_, .f32⟩
  | .hbm, ⟨38, _⟩ => ⟨S150000x9, .f32⟩
  | .hbm, ⟨39, _⟩ => ⟨S150000x9, .f32⟩
  | .hbm, ⟨40, _⟩ => ⟨S9x512, .f32⟩
  | .hbm, ⟨41, _⟩ => ⟨S512x512, .f32⟩
  | .hbm, ⟨42, _⟩ => ⟨S1x512, .f32⟩
  | .hbm, ⟨43, _⟩ => ⟨S1x512, .f32⟩
  | .hbm, ⟨44, _⟩ => ⟨S150000x512, .bf16⟩
  | .hbm, ⟨45, _⟩ => ⟨S150000x512, .f32⟩
  | .hbm, ⟨46, _⟩ => ⟨S_, .f32⟩
  | .hbm, ⟨47, _⟩ => ⟨S50000x512, .f32⟩
  | .hbm, ⟨48, _⟩ => ⟨S150000x1, .i32⟩
  | .hbm, ⟨49, _⟩ => ⟨S50000x512, .f32⟩
  | .hbm, ⟨50, _⟩ => ⟨S_, .f32⟩
  | .hbm, ⟨51, _⟩ => ⟨S150000, .f32⟩
  | .hbm, ⟨52, _⟩ => ⟨S_, .f32⟩
  | .hbm, ⟨53, _⟩ => ⟨S50000, .f32⟩
  | .hbm, ⟨54, _⟩ => ⟨S150000x1, .i32⟩
  | .hbm, ⟨55, _⟩ => ⟨S50000, .f32⟩
  | .hbm, ⟨56, _⟩ => ⟨S50000x1, .f32⟩
  | .hbm, ⟨57, _⟩ => ⟨S_, .i32⟩
  | .hbm, ⟨58, _⟩ => ⟨S50000, .i32⟩
  | .hbm, ⟨59, _⟩ => ⟨S50000, .i1⟩
  | .hbm, ⟨60, _⟩ => ⟨S_, .i32⟩
  | .hbm, ⟨61, _⟩ => ⟨S50000, .i32⟩
  | .hbm, ⟨62, _⟩ => ⟨S50000, .i32⟩
  | .hbm, ⟨63, _⟩ => ⟨S50000, .i32⟩
  | .hbm, ⟨64, _⟩ => ⟨S50000x1, .i32⟩
  | .hbm, ⟨65, _⟩ => ⟨S1, .i32⟩
  | .hbm, ⟨66, _⟩ => ⟨S_, .i32⟩
  | .hbm, ⟨67, _⟩ => ⟨S50000x1, .i32⟩
  | .hbm, ⟨68, _⟩ => ⟨S50000x1, .i1⟩
  | .hbm, ⟨69, _⟩ => ⟨S1x1, .i32⟩
  | .hbm, ⟨70, _⟩ => ⟨S50000x1, .i32⟩
  | .hbm, ⟨71, _⟩ => ⟨S50000x1, .i1⟩
  | .hbm, ⟨72, _⟩ => ⟨S50000x1, .i1⟩
  | .hbm, ⟨73, _⟩ => ⟨S_, .i1⟩
  | .hbm, ⟨74, _⟩ => ⟨S50000, .i1⟩
  | .hbm, ⟨75, _⟩ => ⟨S50000x16, .f32⟩
  | .hbm, ⟨76, _⟩ => ⟨S50000x16, .i1⟩
  | .hbm, ⟨77, _⟩ => ⟨S_, .f32⟩
  | .hbm, ⟨78, _⟩ => ⟨S50000x16, .f32⟩
  | .hbm, ⟨79, _⟩ => ⟨S50000x16, .f32⟩
  | .hbm, ⟨80, _⟩ => ⟨S9x512, .f32⟩
  | .hbm, ⟨81, _⟩ => ⟨S512x512, .f32⟩
  | .hbm, ⟨82, _⟩ => ⟨S16x512, .f32⟩
  | .hbm, ⟨83, _⟩ => ⟨S1x512, .f32⟩
  | .hbm, ⟨84, _⟩ => ⟨S1x1, .f32⟩
  | .hbm, ⟨85, _⟩ => ⟨S50000x1, .f32⟩
  | .local _ .vmem, ⟨0, _⟩ => ⟨S2000x9, .f32⟩
  | .local _ .vmem, ⟨1, _⟩ => ⟨S2000x9, .f32⟩
  | .local _ .vmem, ⟨2, _⟩ => ⟨S2000x512, .f32⟩
  | .local _ .vmem, ⟨3, _⟩ => ⟨S2000x512, .f32⟩
  | .local _ .vmem, ⟨4, _⟩ => ⟨S9x512, .f32⟩
  | .local _ .vmem, ⟨5, _⟩ => ⟨S512x512, .f32⟩
  | .local _ .vmem, ⟨6, _⟩ => ⟨S1x512, .f32⟩
  | .local _ .vmem, ⟨7, _⟩ => ⟨S512x512, .f32⟩
  | .local _ .vmem, ⟨8, _⟩ => ⟨S1x512, .f32⟩
  | .local _ .vmem, ⟨9, _⟩ => ⟨S2000x512, .bf16⟩
  | .local _ .vmem, ⟨10, _⟩ => ⟨S2000x512, .bf16⟩
  | .local _ .vmem, ⟨11, _⟩ => ⟨S2000x9, .f32⟩
  | .local _ .vmem, ⟨12, _⟩ => ⟨S2000x9, .f32⟩
  | .local _ .vmem, ⟨13, _⟩ => ⟨S2000x512, .f32⟩
  | .local _ .vmem, ⟨14, _⟩ => ⟨S2000x512, .f32⟩
  | .local _ .vmem, ⟨15, _⟩ => ⟨S2000x1, .f32⟩
  | .local _ .vmem, ⟨16, _⟩ => ⟨S2000x1, .f32⟩
  | .local _ .vmem, ⟨17, _⟩ => ⟨S2000x16, .f32⟩
  | .local _ .vmem, ⟨18, _⟩ => ⟨S2000x16, .f32⟩
  | .local _ .vmem, ⟨19, _⟩ => ⟨S9x512, .f32⟩
  | .local _ .vmem, ⟨20, _⟩ => ⟨S512x512, .f32⟩
  | .local _ .vmem, ⟨21, _⟩ => ⟨S16x512, .f32⟩
  | .local _ .vmem, ⟨22, _⟩ => ⟨S1x512, .f32⟩
  | .local _ .vmem, ⟨23, _⟩ => ⟨S512x1, .f32⟩
  | .local _ .vmem, ⟨24, _⟩ => ⟨S1x1, .f32⟩
  | .local _ .vmem, ⟨25, _⟩ => ⟨S2000x1, .f32⟩
  | .local _ .vmem, ⟨26, _⟩ => ⟨S2000x1, .f32⟩
  | _, _ => ⟨S50000x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_cst : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_cst_0 : Ref sig .tc := ⟨.hbm, 50, rfl⟩
abbrev main_v14 : Ref sig .tc := ⟨.hbm, 51, rfl⟩
abbrev main_cst_1 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_call1_c : Ref sig .tc := ⟨.hbm, 57, rfl⟩
abbrev main_call1_v0 : Ref sig .tc := ⟨.hbm, 58, rfl⟩
abbrev main_call1_v1 : Ref sig .tc := ⟨.hbm, 59, rfl⟩
abbrev main_call1_c_0 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_v5 : Ref sig .tc := ⟨.hbm, 64, rfl⟩
abbrev main_call1_c_1 : Ref sig .tc := ⟨.hbm, 65, rfl⟩
abbrev main_call1_c_2 : Ref sig .tc := ⟨.hbm, 66, rfl⟩
abbrev main_call1_v6 : Ref sig .tc := ⟨.hbm, 67, rfl⟩
abbrev main_call1_v7 : Ref sig .tc := ⟨.hbm, 68, rfl⟩
abbrev main_call1_v8 : Ref sig .tc := ⟨.hbm, 69, rfl⟩
abbrev main_call1_v9 : Ref sig .tc := ⟨.hbm, 70, rfl⟩
abbrev main_call1_v10 : Ref sig .tc := ⟨.hbm, 71, rfl⟩
abbrev main_call1_v11 : Ref sig .tc := ⟨.hbm, 72, rfl⟩
abbrev main_call1_c_3 : Ref sig .tc := ⟨.hbm, 73, rfl⟩
abbrev main_call1_v12 : Ref sig .tc := ⟨.hbm, 74, rfl⟩
abbrev main_call1_v13 : Ref sig .tc := ⟨.hbm, 75, rfl⟩
abbrev main_call1_v14 : Ref sig .tc := ⟨.hbm, 76, rfl⟩
abbrev main_call1_cst : Ref sig .tc := ⟨.hbm, 77, rfl⟩
abbrev main_call1_v15 : Ref sig .tc := ⟨.hbm, 78, rfl⟩
abbrev main_v19 : Ref sig .tc := ⟨.hbm, 79, rfl⟩
abbrev main_v20 : Ref sig .tc := ⟨.hbm, 80, rfl⟩
abbrev main_v21 : Ref sig .tc := ⟨.hbm, 81, rfl⟩
abbrev main_v22 : Ref sig .tc := ⟨.hbm, 82, rfl⟩
abbrev main_v23 : Ref sig .tc := ⟨.hbm, 83, rfl⟩
abbrev main_v24 : Ref sig .tc := ⟨.hbm, 84, rfl⟩
abbrev main_v25 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg10_0 : Ref sig .tc := ⟨.vmem, 25, rfl⟩
abbrev cc1_stg10_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem10_0 : DmaSem sig := 25
abbrev cc1_sem10_1 : DmaSem sig := 26

abbrev nD : Nat := 1
abbrev τ : Topo := Topo.v7x

variable {F : FTy → Type} [FloatOps F]

abbrev grid0 : Pipeline.Grid := ⟨1, ![75], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S9x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x9 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S9x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S16x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S512x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S2000x1 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  slices_S2x150000_S1x150000_0_0 : S2x150000.Slices ![0, 0] S1x150000
  shapeCasts_S1x150000_S150000 : S1x150000.ShapeCasts S150000
  slices_S2x150000_S1x150000_1_0 : S2x150000.Slices ![1, 0] S1x150000
  bcast_S_S150000 : S_.BroadcastsInDim S150000 (![] : Fin 0 → Fin S150000.rank)
  bcast_S150000_S150000x1_0 : S150000.BroadcastsInDim S150000x1 (![0] : Fin 1 → Fin S150000x1.rank)
  bcast_S_S150000x1 : S_.BroadcastsInDim S150000x1 (![] : Fin 0 → Fin S150000x1.rank)
  bcast_S1_S1x1_1 : S1.BroadcastsInDim S1x1 (![1] : Fin 1 → Fin S1x1.rank)
  bcast_S1x1_S150000x1_0_1 : S1x1.BroadcastsInDim S150000x1 (![0, 1] : Fin 2 → Fin S150000x1.rank)
  reducesTo_S150000x1_S150000_d1 : S150000x1.ReducesTo [1] S150000
  h_S_ : 0 < S_.numel
  bcast_S150000_S150000x9_0 : S150000.BroadcastsInDim S150000x9 (![0] : Fin 1 → Fin S150000x9.rank)
  bcast_S_S150000x9 : S_.BroadcastsInDim S150000x9 (![] : Fin 0 → Fin S150000x9.rank)
  slices_S521x512_S9x512_0_0 : S521x512.Slices ![0, 0] S9x512
  slices_S521x512_S512x512_9_0 : S521x512.Slices ![9, 0] S512x512
  shapeCasts_S512_S1x512 : S512.ShapeCasts S1x512
  inb_S2000x9_S2000x9_0_0 : ∀ a, (![0, 0] : Fin 2 → Nat) a + S2000x9.size a ≤ S2000x9.size a
  h_S2000x9 : 0 < S2000x9.numel
  shapeCasts_S2000x9_S2000x9 : S2000x9.ShapeCasts S2000x9
  bitsLt_bf16_f32 : FTy.bits .bf16 < FTy.bits .f32
  inb_S2000x512_S2000x512_0_0 : ∀ a, (![0, 0] : Fin 2 → Nat) a + S2000x512.size a ≤ S2000x512.size a
  h_S2000x512 : 0 < S2000x512.numel
  inb_S9x512_S9x512_0_0 : ∀ a, (![0, 0] : Fin 2 → Nat) a + S9x512.size a ≤ S9x512.size a
  h_S9x512 : 0 < S9x512.numel
  shapeCasts_S9x512_S9x512 : S9x512.ShapeCasts S9x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  packedbf16_S2000x512_S2000x512_0_0 : (Rect.unit (s := S2000x512) ![0, 0] S2000x512.size inb_S2000x512_S2000x512_0_0).PackedRows (EltTy.packing .bf16)
  bcast_S_S50000x512 : S_.BroadcastsInDim S50000x512 (![] : Fin 0 → Fin S50000x512.rank)
  bcast_S_S50000 : S_.BroadcastsInDim S50000 (![] : Fin 0 → Fin S50000.rank)
  shapeCasts_S50000_S50000x1 : S50000.ShapeCasts S50000x1
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S1x1_S50000x1_0_1 : S1x1.BroadcastsInDim S50000x1 (![0, 1] : Fin 2 → Fin S50000x1.rank)
  reducesTo_S50000x1_S50000_d1 : S50000x1.ReducesTo [1] S50000
  bcast_S50000_S50000x16_0 : S50000.BroadcastsInDim S50000x16 (![0] : Fin 1 → Fin S50000x16.rank)
  bcast_S_S50000x16 : S_.BroadcastsInDim S50000x16 (![] : Fin 0 → Fin S50000x16.rank)
  slices_S537x512_S9x512_0_0 : S537x512.Slices ![0, 0] S9x512
  slices_S537x512_S512x512_9_0 : S537x512.Slices ![9, 0] S512x512
  slices_S537x512_S16x512_521_0 : S537x512.Slices ![521, 0] S16x512
  shapeCasts_S1_S1x1 : S1.ShapeCasts S1x1
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  shapeCasts_S2000x512_S2000x512 : S2000x512.ShapeCasts S2000x512
  broadcasts_S2000x1_S2000x512 : S2000x1.Broadcasts S2000x512
  inb_S2000x16_S2000x16_0_0 : ∀ a, (![0, 0] : Fin 2 → Nat) a + S2000x16.size a ≤ S2000x16.size a
  h_S2000x16 : 0 < S2000x16.numel
  shapeCasts_S2000x16_S2000x16 : S2000x16.ShapeCasts S2000x16
  inb_S16x512_S16x512_0_0 : ∀ a, (![0, 0] : Fin 2 → Nat) a + S16x512.size a ≤ S16x512.size a
  h_S16x512 : 0 < S16x512.numel
  shapeCasts_S16x512_S16x512 : S16x512.ShapeCasts S16x512
  inb_S512x1_S512x1_0_0 : ∀ a, (![0, 0] : Fin 2 → Nat) a + S512x1.size a ≤ S512x1.size a
  h_S512x1 : 0 < S512x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  gather_S50000x9_S150000x1_S150000x9_1_0_n_n_0_1_19_wf : GatherDims.WF S50000x9 S150000x1 S150000x9 [1] [0] [] [0] [] 1 ![1, 9]
  dot_S2000x9_S9x512_S2000x512_1_0_0_1_n_n_wf : DotDims.WF S2000x9 S9x512 S2000x512 [1] [0] [0] [1] [] []
  dot_S2000x512_S512x512_S2000x512_1_0_0_1_n_n_wf : DotDims.WF S2000x512 S512x512 S2000x512 [1] [0] [0] [1] [] []
  scatter_S50000x512_S150000x1_S150000x512_1_0_0_1_wf : ScatterDims.WF S50000x512 S150000x1 S150000x512 [1] [0] [0] 1
  scatter_S50000_S150000x1_S150000_n_0_0_1_wf : ScatterDims.WF S50000 S150000x1 S150000 [] [0] [0] 1
  gather_S64x16_S50000x1_S50000x16_1_0_n_n_0_1_116_wf : GatherDims.WF S64x16 S50000x1 S50000x16 [1] [0] [] [0] [] 1 ![1, 16]
  dot_S2000x16_S16x512_S2000x512_1_0_0_1_n_n_wf : DotDims.WF S2000x16 S16x512 S2000x512 [1] [0] [0] [1] [] []
  dot_S2000x512_S512x1_S2000x1_1_0_0_1_n_n_wf : DotDims.WF S2000x512 S512x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x9.size a ≤ S150000x9.size a
  hwx0_0 : ∀ i : grid0.Coords, EltTy.bits .f32 = 32 ∨ (Rect.block (s := S150000x9) S2000x9.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x512.size a ≤ S150000x512.size a
  hwx0_1 : ∀ i : grid0.Coords, EltTy.bits .f32 = 32 ∨ (Rect.block (s := S150000x512) S2000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S9x512.size a ≤ S9x512.size a
  hwx0_2 : ∀ i : grid0.Coords, EltTy.bits .f32 = 32 ∨ (Rect.block (s := S9x512) S9x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .f32 = 32 ∨ (Rect.block (s := S512x512) S512x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x512.size a ≤ S150000x512.size a
  hwx0_7 : ∀ i : grid0.Coords, EltTy.bits .bf16 = 32 ∨ (Rect.block (s := S150000x512) S2000x512.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x9.size a ≤ S50000x9.size a
  hwx1_0 : ∀ i : grid1.Coords, EltTy.bits .f32 = 32 ∨ (Rect.block (s := S50000x9) S2000x9.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x512.size a ≤ S50000x512.size a
  hwx1_1 : ∀ i : grid1.Coords, EltTy.bits .f32 = 32 ∨ (Rect.block (s := S50000x512) S2000x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x16.size a ≤ S50000x16.size a
  hwx1_3 : ∀ i : grid1.Coords, EltTy.bits .f32 = 32 ∨ (Rect.block (s := S50000x16) S2000x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S9x512.size a ≤ S9x512.size a
  hwx1_4 : ∀ i : grid1.Coords, EltTy.bits .f32 = 32 ∨ (Rect.block (s := S9x512) S9x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x512.size a ≤ S512x512.size a
  hwx1_5 : ∀ i : grid1.Coords, EltTy.bits .f32 = 32 ∨ (Rect.block (s := S512x512) S512x512.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S16x512.size a ≤ S16x512.size a
  hwx1_6 : ∀ i : grid1.Coords, EltTy.bits .f32 = 32 ∨ (Rect.block (s := S16x512) S16x512.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x512.size a ≤ S1x512.size a
  hwx1_7 : ∀ i : grid1.Coords, EltTy.bits .f32 = 32 ∨ (Rect.block (s := S1x512) S1x512.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S512x1.size a ≤ S512x1.size a
  hwx1_8 : ∀ i : grid1.Coords, EltTy.bits .f32 = 32 ∨ (Rect.block (s := S512x1) S512x1.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x1.size a ≤ S1x1.size a
  hwx1_9 : ∀ i : grid1.Coords, EltTy.bits .f32 = 32 ∨ (Rect.block (s := S1x1) S1x1.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2000x1.size a ≤ S50000x1.size a
  hwx1_10 : ∀ i : grid1.Coords, EltTy.bits .f32 = 32 ∨ (Rect.block (s := S50000x1) S2000x1.size (cc1_transform_10 i) (hinb1_10 i)).WholeWords (EltTy.packing .f32)

variable [Facts₀]

def gather_S50000x9_S150000x1_S150000x9_1_0_n_n_0_1_19 : GatherDims S50000x9 S150000x1 S150000x9 where
  offsetDims := [1]
  collapsedSliceDims := [0]
  operandBatchingDims := []
  startIndicesBatchingDims := []
  startIndexMap := [0]
  indexVectorDim := 1
  sliceSizes := ![1, 9]
  wf := gather_S50000x9_S150000x1_S150000x9_1_0_n_n_0_1_19_wf
def dot_S2000x9_S9x512_S2000x512_1_0_0_1_n_n : DotDims S2000x9 S9x512 S2000x512 where
  lhsContracting := [1]
  rhsContracting := [0]
  lhsNonContracting := [0]
  rhsNonContracting := [1]
  lhsBatch := []
  rhsBatch := []
  wf := dot_S2000x9_S9x512_S2000x512_1_0_0_1_n_n_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def scatter_S50000x512_S150000x1_S150000x512_1_0_0_1 : ScatterDims S50000x512 S150000x1 S150000x512 where
  updateWindowDims := [1]
  insertedWindowDims := [0]
  scatterDimsToOperandDims := [0]
  indexVectorDim := 1
  wf := scatter_S50000x512_S150000x1_S150000x512_1_0_0_1_wf
def scatter_S50000_S150000x1_S150000_n_0_0_1 : ScatterDims S50000 S150000x1 S150000 where
  updateWindowDims := []
  insertedWindowDims := [0]
  scatterDimsToOperandDims := [0]
  indexVectorDim := 1
  wf := scatter_S50000_S150000x1_S150000_n_0_0_1_wf
def gather_S64x16_S50000x1_S50000x16_1_0_n_n_0_1_116 : GatherDims S64x16 S50000x1 S50000x16 where
  offsetDims := [1]
  collapsedSliceDims := [0]
  operandBatchingDims := []
  startIndicesBatchingDims := []
  startIndexMap := [0]
  indexVectorDim := 1
  sliceSizes := ![1, 16]
  wf := gather_S64x16_S50000x1_S50000x16_1_0_n_n_0_1_116_wf
def dot_S2000x16_S16x512_S2000x512_1_0_0_1_n_n : DotDims S2000x16 S16x512 S2000x512 where
  lhsContracting := [1]
  rhsContracting := [0]
  lhsNonContracting := [0]
  rhsNonContracting := [1]
  lhsBatch := []
  rhsBatch := []
  wf := dot_S2000x16_S16x512_S2000x512_1_0_0_1_n_n_wf
def dot_S2000x512_S512x1_S2000x1_1_0_0_1_n_n : DotDims S2000x512 S512x1 S2000x1 where
  lhsContracting := [1]
  rhsContracting := [0]
  lhsNonContracting := [0]
  rhsNonContracting := [1]
  lhsBatch := []
  rhsBatch := []
  wf := dot_S2000x512_S512x1_S2000x1_1_0_0_1_n_n_wf

abbrev win0_0 : Pipeline.Window sig grid0 :=
  Pipeline.Window.ofSpec (Memref.whole main_v4) S2000x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S9x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S2000x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S2000x9.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S2000x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v19) S2000x16.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v20) S9x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v21) S512x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v22) S16x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v23) S1x512.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg11) S512x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v24) S1x1.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v25) S2000x1.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S50000x9 : Shape := ⟨2, ![50000, 9]⟩
abbrev S2x150000 : Shape := ⟨2, ![2, 150000]⟩
abbrev S150000x512 : Shape := ⟨2, ![150000, 512]⟩
abbrev S64x16 : Shape := ⟨2, ![64, 16]⟩
abbrev S50000 : Shape := ⟨1, ![50000]⟩
abbrev S521x512 : Shape := ⟨2, ![521, 512]⟩
abbrev S512 : Shape := ⟨1, ![512]⟩
abbrev S512x512 : Shape := ⟨2, ![512, 512]⟩
abbrev S537x512 : Shape := ⟨2, ![537, 512]⟩
abbrev S512x1 : Shape := ⟨2, ![512, 1]⟩
abbrev S1 : Shape := ⟨1, ![1]⟩
abbrev S1x150000 : Shape := ⟨2, ![1, 150000]⟩
abbrev S150000 : Shape := ⟨1, ![150000]⟩
abbrev S_ : Shape := ⟨0, ![]⟩
abbrev S150000x1 : Shape := ⟨2, ![150000, 1]⟩
abbrev S150000x9 : Shape := ⟨2, ![150000, 9]⟩
abbrev S150000x521 : Shape := ⟨2, ![150000, 521]⟩
abbrev S1x512 : Shape := ⟨2, ![1, 512]⟩
abbrev S50000x512 : Shape := ⟨2, ![50000, 512]⟩
abbrev S50000x1 : Shape := ⟨2, ![50000, 1]⟩
abbrev S50000x16 : Shape := ⟨2, ![50000, 16]⟩
abbrev S50000x537 : Shape := ⟨2, ![50000, 537]⟩
abbrev S1x1 : Shape := ⟨2, ![1, 1]⟩

abbrev nBuf : Space → Nat
  | .hbm => 75
  | .vmem => 0
  | .smem => 0
  | _ => 0

abbrev bufTy : (tb : Table) → Fin (tcTables nBuf tb) → BufTy
  | .hbm, ⟨0, _⟩ => ⟨S50000x9, .f32⟩
  | .hbm, ⟨1, _⟩ => ⟨S2x150000, .i32⟩
  | .hbm, ⟨2, _⟩ => ⟨S150000x512, .f32⟩
  | .hbm, ⟨3, _⟩ => ⟨S64x16, .f32⟩
  | .hbm, ⟨4, _⟩ => ⟨S50000, .i32⟩
  | .hbm, ⟨5, _⟩ => ⟨S521x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S537x512, .f32⟩
  | .hbm, ⟨10, _⟩ => ⟨S512, .f32⟩
  | .hbm, ⟨11, _⟩ => ⟨S512x1, .f32⟩
  | .hbm, ⟨12, _⟩ => ⟨S1, .f32⟩
  | .hbm, ⟨13, _⟩ => ⟨S1x150000, .i32⟩
  | .hbm, ⟨14, _⟩ => ⟨S150000, .i32⟩
  | .hbm, ⟨15, _⟩ => ⟨S1x150000, .i32⟩
  | .hbm, ⟨16, _⟩ => ⟨S150000, .i32⟩
  | .hbm, ⟨17, _⟩ => ⟨S_, .i32⟩
  | .hbm, ⟨18, _⟩ => ⟨S150000, .i32⟩
  | .hbm, ⟨19, _⟩ => ⟨S150000, .i1⟩
  | .hbm, ⟨20, _⟩ => ⟨S_, .i32⟩
  | .hbm, ⟨21, _⟩ => ⟨S150000, .i32⟩
  | .hbm, ⟨22, _⟩ => ⟨S150000, .i32⟩
  | .hbm, ⟨23, _⟩ => ⟨S150000, .i32⟩
  | .hbm, ⟨24, _⟩ => ⟨S150000x1, .i32⟩
  | .hbm, ⟨25, _⟩ => ⟨S150000x9, .f32⟩
  | .hbm, ⟨26, _⟩ => ⟨S150000x521, .f32⟩
  | .hbm, ⟨27, _⟩ => ⟨S150000x512, .f32⟩
  | .hbm, ⟨28, _⟩ => ⟨S1x512, .f32⟩
  | .hbm, ⟨29, _⟩ => ⟨S150000x512, .f32⟩
  | .hbm, ⟨30, _⟩ => ⟨S150000x512, .f32⟩
  | .hbm, ⟨31, _⟩ => ⟨S_, .f32⟩
  | .hbm, ⟨32, _⟩ => ⟨S150000x512, .f32⟩
  | .hbm, ⟨33, _⟩ => ⟨S150000x512, .f32⟩
  | .hbm, ⟨34, _⟩ => ⟨S150000x512, .f32⟩
  | .hbm, ⟨35, _⟩ => ⟨S1x512, .f32⟩
  | .hbm, ⟨36, _⟩ => ⟨S150000x512, .f32⟩
  | .hbm, ⟨37, _⟩ => ⟨S150000x512, .f32⟩
  | .hbm, ⟨38, _⟩ => ⟨S_, .f32⟩
  | .hbm, ⟨39, _⟩ => ⟨S50000x512, .f32⟩
  | .hbm, ⟨40, _⟩ => ⟨S150000x1, .i32⟩
  | .hbm, ⟨41, _⟩ => ⟨S50000x512, .f32⟩
  | .hbm, ⟨42, _⟩ => ⟨S_, .f32⟩
  | .hbm, ⟨43, _⟩ => ⟨S150000, .f32⟩
  | .hbm, ⟨44, _⟩ => ⟨S_, .f32⟩
  | .hbm, ⟨45, _⟩ => ⟨S50000, .f32⟩
  | .hbm, ⟨46, _⟩ => ⟨S150000x1, .i32⟩
  | .hbm, ⟨47, _⟩ => ⟨S50000, .f32⟩
  | .hbm, ⟨48, _⟩ => ⟨S_, .f32⟩
  | .hbm, ⟨49, _⟩ => ⟨S50000, .f32⟩
  | .hbm, ⟨50, _⟩ => ⟨S50000, .f32⟩
  | .hbm, ⟨51, _⟩ => ⟨S50000x1, .f32⟩
  | .hbm, ⟨52, _⟩ => ⟨S50000x512, .f32⟩
  | .hbm, ⟨53, _⟩ => ⟨S50000x512, .f32⟩
  | .hbm, ⟨54, _⟩ => ⟨S_, .i32⟩
  | .hbm, ⟨55, _⟩ => ⟨S50000, .i32⟩
  | .hbm, ⟨56, _⟩ => ⟨S50000, .i1⟩
  | .hbm, ⟨57, _⟩ => ⟨S_, .i32⟩
  | .hbm, ⟨58, _⟩ => ⟨S50000, .i32⟩
  | .hbm, ⟨59, _⟩ => ⟨S50000, .i32⟩
  | .hbm, ⟨60, _⟩ => ⟨S50000, .i32⟩
  | .hbm, ⟨61, _⟩ => ⟨S50000x1, .i32⟩
  | .hbm, ⟨62, _⟩ => ⟨S50000x16, .f32⟩
  | .hbm, ⟨63, _⟩ => ⟨S50000x537, .f32⟩
  | .hbm, ⟨64, _⟩ => ⟨S50000x512, .f32⟩
  | .hbm, ⟨65, _⟩ => ⟨S1x512, .f32⟩
  | .hbm, ⟨66, _⟩ => ⟨S50000x512, .f32⟩
  | .hbm, ⟨67, _⟩ => ⟨S50000x512, .f32⟩
  | .hbm, ⟨68, _⟩ => ⟨S_, .f32⟩
  | .hbm, ⟨69, _⟩ => ⟨S50000x512, .f32⟩
  | .hbm, ⟨70, _⟩ => ⟨S50000x512, .f32⟩
  | .hbm, ⟨71, _⟩ => ⟨S50000x1, .f32⟩
  | .hbm, ⟨72, _⟩ => ⟨S1x1, .f32⟩
  | .hbm, ⟨73, _⟩ => ⟨S50000x1, .f32⟩
  | .hbm, ⟨74, _⟩ => ⟨S50000x1, .f32⟩
  | _, _ => ⟨S50000x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_call0_cst : Ref sig .tc := ⟨.hbm, 31, rfl⟩
abbrev main_call0_v0 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_1 : Ref sig .tc := ⟨.hbm, 42, rfl⟩
abbrev main_v24 : Ref sig .tc := ⟨.hbm, 43, rfl⟩
abbrev main_cst_2 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_3 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_4 : Ref sig .tc := ⟨.hbm, 54, rfl⟩
abbrev main_v33 : Ref sig .tc := ⟨.hbm, 55, rfl⟩
abbrev main_v34 : Ref sig .tc := ⟨.hbm, 56, rfl⟩
abbrev main_c_5 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_call1_cst : Ref sig .tc := ⟨.hbm, 68, rfl⟩
abbrev main_call1_v0 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩

abbrev nD : Nat := 1
abbrev τ : Topo := Topo.v7x

variable {F : FTy → Type} [FloatOps F]

class Facts₀ : Prop where
  slices_S2x150000_S1x150000_0_0 : S2x150000.Slices ![0, 0] S1x150000
  shapeCasts_S1x150000_S150000 : S1x150000.ShapeCasts S150000
  slices_S2x150000_S1x150000_1_0 : S2x150000.Slices ![1, 0] S1x150000
  bcast_S_S150000 : S_.BroadcastsInDim S150000 (![] : Fin 0 → Fin S150000.rank)
  bcast_S150000_S150000x1_0 : S150000.BroadcastsInDim S150000x1 (![0] : Fin 1 → Fin S150000x1.rank)
  concatenates_S150000x9_S150000x512_S150000x521_d1 : Shape.Concatenates [S150000x9, S150000x512] S150000x521 1
  bcast_S512_S1x512_1 : S512.BroadcastsInDim S1x512 (![1] : Fin 1 → Fin S1x512.rank)
  bcast_S1x512_S150000x512_0_1 : S1x512.BroadcastsInDim S150000x512 (![0, 1] : Fin 2 → Fin S150000x512.rank)
  bcast_S_S150000x512 : S_.BroadcastsInDim S150000x512 (![] : Fin 0 → Fin S150000x512.rank)
  bcast_S_S50000x512 : S_.BroadcastsInDim S50000x512 (![] : Fin 0 → Fin S50000x512.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x512_0_1 : S50000x1.BroadcastsInDim S50000x512 (![0, 1] : Fin 2 → Fin S50000x512.rank)
  concatenates_S50000x9_S50000x512_S50000x16_S50000x537_d1 : Shape.Concatenates [S50000x9, S50000x512, S50000x16] S50000x537 1
  bcast_S1x512_S50000x512_0_1 : S1x512.BroadcastsInDim S50000x512 (![0, 1] : Fin 2 → Fin S50000x512.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  gather_S50000x9_S150000x1_S150000x9_1_0_n_n_0_1_19_wf : GatherDims.WF S50000x9 S150000x1 S150000x9 [1] [0] [] [0] [] 1 ![1, 9]
  dot_S150000x521_S521x512_S150000x512_1_0_0_1_n_n_wf : DotDims.WF S150000x521 S521x512 S150000x512 [1] [0] [0] [1] [] []
  dot_S150000x512_S512x512_S150000x512_1_0_0_1_n_n_wf : DotDims.WF S150000x512 S512x512 S150000x512 [1] [0] [0] [1] [] []
  scatter_S50000x512_S150000x1_S150000x512_1_0_0_1_wf : ScatterDims.WF S50000x512 S150000x1 S150000x512 [1] [0] [0] 1
  scatter_S50000_S150000x1_S150000_n_0_0_1_wf : ScatterDims.WF S50000 S150000x1 S150000 [] [0] [0] 1
  gather_S64x16_S50000x1_S50000x16_1_0_n_n_0_1_116_wf : GatherDims.WF S64x16 S50000x1 S50000x16 [1] [0] [] [0] [] 1 ![1, 16]
  dot_S50000x537_S537x512_S50000x512_1_0_0_1_n_n_wf : DotDims.WF S50000x537 S537x512 S50000x512 [1] [0] [0] [1] [] []
  dot_S50000x512_S512x1_S50000x1_1_0_0_1_n_n_wf : DotDims.WF S50000x512 S512x1 S50000x1 [1] [0] [0] [1] [] []

variable [Facts₀]

def gather_S50000x9_S150000x1_S150000x9_1_0_n_n_0_1_19 : GatherDims S50000x9 S150000x1 S150000x9 where
  offsetDims := [1]
  collapsedSliceDims := [0]
  operandBatchingDims := []
  startIndicesBatchingDims := []
  startIndexMap := [0]
  indexVectorDim := 1
  sliceSizes := ![1, 9]
  wf := gather_S50000x9_S150000x1_S150000x9_1_0_n_n_0_1_19_wf
def dot_S150000x521_S521x512_S150000x512_1_0_0_1_n_n : DotDims S150000x521 S521x512 S150000x512 where
  lhsContracting := [1]
  rhsContracting := [0]
  lhsNonContracting := [0]
  rhsNonContracting := [1]
  lhsBatch := []
  rhsBatch := []
  wf := dot_S150000x521_S521x512_S150000x512_1_0_0_1_n_n_wf
def dot_S150000x512_S512x512_S150000x512_1_0_0_1_n_n : DotDims S150000x512 S512x512 S150000x512 where
  lhsContracting := [1]
  rhsContracting := [0]
  lhsNonContracting := [0]
  rhsNonContracting := [1]
  lhsBatch := []
  rhsBatch := []
  wf := dot_S150000x512_S512x512_S150000x512_1_0_0_1_n_n_wf
def scatter_S50000x512_S150000x1_S150000x512_1_0_0_1 : ScatterDims S50000x512 S150000x1 S150000x512 where
  updateWindowDims := [1]
  insertedWindowDims := [0]
  scatterDimsToOperandDims := [0]
  indexVectorDim := 1
  wf := scatter_S50000x512_S150000x1_S150000x512_1_0_0_1_wf
def scatter_S50000_S150000x1_S150000_n_0_0_1 : ScatterDims S50000 S150000x1 S150000 where
  updateWindowDims := []
  insertedWindowDims := [0]
  scatterDimsToOperandDims := [0]
  indexVectorDim := 1
  wf := scatter_S50000_S150000x1_S150000_n_0_0_1_wf
def gather_S64x16_S50000x1_S50000x16_1_0_n_n_0_1_116 : GatherDims S64x16 S50000x1 S50000x16 where
  offsetDims := [1]
  collapsedSliceDims := [0]
  operandBatchingDims := []
  startIndicesBatchingDims := []
  startIndexMap := [0]
  indexVectorDim := 1
  sliceSizes := ![1, 16]
  wf := gather_S64x16_S50000x1_S50000x16_1_0_n_n_0_1_116_wf
def dot_S50000x537_S537x512_S50000x512_1_0_0_1_n_n : DotDims S50000x537 S537x512 S50000x512 where
  lhsContracting := [1]
  rhsContracting := [0]
  lhsNonContracting := [0]
  rhsNonContracting := [1]
  lhsBatch := []
  rhsBatch := []
  wf := dot_S50000x537_S537x512_S50000x512_1_0_0_1_n_n_wf
def dot_S50000x512_S512x1_S50000x1_1_0_0_1_n_n : DotDims S50000x512 S512x1 S50000x1 where
  lhsContracting := [1]
  rhsContracting := [0]
  lhsNonContracting := [0]
  rhsNonContracting := [1]
  lhsBatch := []
  rhsBatch := []
  wf := dot_S50000x512_S512x1_S50000x1_1_0_0_1_n_n_wf

class Facts : Prop extends Facts₀ where

variable [Facts]
-- ==== Proof.Spec.lean ====
/-
  What the two programs compute, index by index on the extended reals, and the one law that joins them.

  An edge's message is a two-layer perceptron of its source node's nine features beside its own 512 attributes: the
  first layer's weight matrix has 9 + 512 rows, so a row of it meets the concatenated input either as one sum over
  521 terms or as the sum over the first 9 rows plus the sum over the other 512 — the same number in any additive
  commutative monoid, the extended reals included (no term is moved across a product, so no finiteness is needed).
  A node's output is the same perceptron shape over 9 + 512 + 16 inputs: its features, the mean of the messages that
  reach it (their sum over the larger of their count and one), and its graph's sixteen features.
-/
import Idealize.ShloMosaic.PureOps.Ideal
import Idealize.ShloMosaic.Lib.ValueIdx
import Mathlib.Algebra.BigOperators.Fin

noncomputable section

namespace Cert.Spec

open Idealize.ShloMosaic Idealize.ShloMosaic.ValueIdx

/-- Row `q` of the 521-row matrix that lies in its first nine rows. -/
abbrev lo9 (q : Fin 9) : Fin 521 := ⟨q.val, by omega⟩
/-- Row `9 + q` of the 521-row matrix: the rows that meet the edge attributes. -/
abbrev hi512 (q : Fin 512) : Fin 521 := ⟨9 + q.val, by omega⟩
/-- Rows of the 537-row matrix: the first nine, the next 512, the last sixteen. -/
abbrev a9 (q : Fin 9) : Fin 537 := ⟨q.val, by omega⟩
abbrev b512 (q : Fin 512) : Fin 537 := ⟨9 + q.val, by omega⟩
abbrev c16 (q : Fin 16) : Fin 537 := ⟨521 + q.val, by omega⟩

/-- A sum over 521 = 9 + 512 terms is the sum over the first nine plus the sum over the rest. -/
theorem sum_521 (g : Fin 521 → EReal) : ∑ k : Fin 521, g k = ∑ q : Fin 9, g (lo9 q) + ∑ q : Fin 512, g (hi512 q) := by
  have h := Fin.sum_univ_add (M := EReal) (a := 9) (b := 512) g
  rw [h]
  rfl

/-- A sum over 537 = 9 + 512 + 16 terms, grouped as the kernel adds its three products. -/
theorem sum_537 (g : Fin 537 → EReal) :
    ∑ k : Fin 537, g k = (∑ q : Fin 9, g (a9 q) + ∑ q : Fin 512, g (b512 q)) + ∑ q : Fin 16, g (c16 q) := by
  have h := Fin.sum_univ_add (M := EReal) (a := 521) (b := 16) g
  rw [h]
  have h' := Fin.sum_univ_add (M := EReal) (a := 9) (b := 512) fun k : Fin 521 => g (Fin.castAdd 16 k)
  rw [h']
  rfl

/-- The zero and the one both programs carry, as the words they print. -/
abbrev zeroF : EReal := Ideal.ofBits .f32 0x00000000#32
abbrev oneF : EReal := Ideal.ofBits .f32 0x3F800000#32

/-- The message of edge `e`, component `j`: `relu(xe[e] · W1a[:9] + ea[e] · W1a[9:] + b1a) · W1b + b1b`. -/
def H (xe : (⟨2, ![150000, 9]⟩ : Shape).Idx → EReal) (ea : (⟨2, ![150000, 512]⟩ : Shape).Idx → EReal)
    (W1a : (⟨2, ![521, 512]⟩ : Shape).Idx → EReal) (b1a : (⟨1, ![512]⟩ : Shape).Idx → EReal)
    (W1b : (⟨2, ![512, 512]⟩ : Shape).Idx → EReal) (b1b : (⟨1, ![512]⟩ : Shape).Idx → EReal) :
    (⟨2, ![150000, 512]⟩ : Shape).Idx → EReal := fun i =>
  (∑ k : Fin 512,
      max (((∑ q : Fin 9, xe (ix2 (i 0) q) * W1a (ix2 (lo9 q) k))
            + ∑ q : Fin 512, ea (ix2 (i 0) q) * W1a (ix2 (hi512 q) k)) + b1a (ix1 k)) zeroF
        * W1b (ix2 k (i 1)))
    + b1b (ix1 (i 1))

/-- Node `n`'s output: `relu(x[n] · W2a[:9] + (sums[n] / max(cnt[n], 1)) · W2a[9:521] + ub[n] · W2a[521:] + b2a) · W2b + b2b`. -/
def OUT (x : (⟨2, ![50000, 9]⟩ : Shape).Idx → EReal) (sums : (⟨2, ![50000, 512]⟩ : Shape).Idx → EReal)
    (cnt : (⟨1, ![50000]⟩ : Shape).Idx → EReal) (ub : (⟨2, ![50000, 16]⟩ : Shape).Idx → EReal)
    (W2a : (⟨2, ![537, 512]⟩ : Shape).Idx → EReal) (b2a : (⟨1, ![512]⟩ : Shape).Idx → EReal)
    (W2b : (⟨2, ![512, 1]⟩ : Shape).Idx → EReal) (b2b : (⟨1, ![1]⟩ : Shape).Idx → EReal) :
    (⟨2, ![50000, 1]⟩ : Shape).Idx → EReal := fun i =>
  (∑ k : Fin 512,
      max ((((∑ q : Fin 9, x (ix2 (i 0) q) * W2a (ix2 (a9 q) k))
              + ∑ q : Fin 512, Ideal.div (sums (ix2 (i 0) q)) (max (cnt (ix1 (i 0))) oneF) * W2a (ix2 (b512 q) k))
            + ∑ q : Fin 16, ub (ix2 (i 0) q) * W2a (ix2 (c16 q) k)) + b2a (ix1 k)) zeroF
        * W2b (ix2 k (0 : Fin 1)))
    + b2b (ix1 (0 : Fin 1))

end Cert.Spec

end
-- ==== Proof.LibMatProd.lean ====
/-
  A plain matrix product on the extended reals as a sum over the shared axis.

  For the dimension numbers of an `A × K` by `K × B` product (`DotDims.plain A K B`: contract the left
  operand's axis 1 with the right operand's axis 0, no batch axes), a kernel's `tpu.matmul` into a zero
  accumulator and a host `dot_general` are, at entry `(a, b)`, the sum over `k : Fin K` of
  `lhs (a, k) * rhs (k, b)`. A printed record with these six lists is `DotDims.plain` by `rfl`.
-/
import Idealize.ShloMosaic.PureOps.Ideal.Laws
import Idealize.ShloMosaic.Lib.ValueIdx

noncomputable section

namespace Cert.LibMatProd

open Idealize.ShloMosaic Idealize.ShloMosaic.ValueIdx

variable (A K B : ℕ)

/-- The left operand's index at result index `i` and contraction index `q`: row `i 0` … -/
theorem lhs_axis0 (i : (⟨2, ![A, B]⟩ : Shape).Idx) (q : (DotDims.plain A K B).contr.Idx) :
    ((DotDims.plain A K B).lhsIdx i q 0).val = (i 0).val := by
  unfold DotDims.lhsIdx
  rw [dif_neg (show ¬(0 : Fin (⟨2, ![A, K]⟩ : Shape).rank) ∈ (DotDims.plain A K B).lhsBatch from List.not_mem_nil),
    dif_pos (show (0 : Fin (⟨2, ![A, K]⟩ : Shape).rank) ∈ (DotDims.plain A K B).lhsNonContracting from List.mem_singleton.2 rfl)]
  rfl
/-- … column `q`'s one coordinate. -/
theorem lhs_axis1 (i : (⟨2, ![A, B]⟩ : Shape).Idx) (q : (DotDims.plain A K B).contr.Idx) :
    ((DotDims.plain A K B).lhsIdx i q 1).val = (q ⟨0, Nat.one_pos⟩).val :=
  (DotDims.plain A K B).lhsIdx_val_of_single rfl i q
/-- The right operand's index: row `q`'s one coordinate … -/
theorem rhs_axis0 (i : (⟨2, ![A, B]⟩ : Shape).Idx) (q : (DotDims.plain A K B).contr.Idx) :
    ((DotDims.plain A K B).rhsIdx i q 0).val = (q ⟨0, Nat.one_pos⟩).val :=
  (DotDims.plain A K B).rhsIdx_val_of_single rfl i q
/-- … column `i 1`. -/
theorem rhs_axis1 (i : (⟨2, ![A, B]⟩ : Shape).Idx) (q : (DotDims.plain A K B).contr.Idx) :
    ((DotDims.plain A K B).rhsIdx i q 1).val = (i 1).val := by
  unfold DotDims.rhsIdx
  rw [dif_neg (show ¬(1 : Fin (⟨2, ![K, B]⟩ : Shape).rank) ∈ (DotDims.plain A K B).rhsBatch from List.not_mem_nil),
    dif_pos (show (1 : Fin (⟨2, ![K, B]⟩ : Shape).rank) ∈ (DotDims.plain A K B).rhsNonContracting from List.mem_singleton.2 rfl)]
  rfl

/-- The sum over the contraction index of a plain product is the sum over `k : Fin K`. -/
theorem plain_sum (l : (⟨2, ![A, K]⟩ : Shape).Idx → EReal) (r : (⟨2, ![K, B]⟩ : Shape).Idx → EReal) (a : Fin A) (b : Fin B) :
    (∑ q : (DotDims.plain A K B).contr.Idx,
        l ((DotDims.plain A K B).lhsIdx (ix2 a b) q) * r ((DotDims.plain A K B).rhsIdx (ix2 a b) q))
      = ∑ k : Fin K, l (ix2 a k) * r (ix2 k b) := by
  rw [← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx (ix2 a b) ((contrEquiv1 (DotDims.plain A K B) K rfl rfl).symm k) = ix2 a k :=
    funext fun ax => Fin.ext (by
      match ax with
      | ⟨0, _⟩ => exact lhs_axis0 A K B _ _
      | ⟨1, _⟩ => exact (lhs_axis1 A K B _ _).trans hk)
  have er : (DotDims.plain A K B).rhsIdx (ix2 a b) ((contrEquiv1 (DotDims.plain A K B) K rfl rfl).symm k) = ix2 k b :=
    funext fun ax => Fin.ext (by
      match ax with
      | ⟨0, _⟩ => exact (rhs_axis0 A K B _ _).trans hk
      | ⟨1, _⟩ => exact rhs_axis1 A K B _ _)
  rw [el, er]

variable {A K B}

/-- A kernel's matrix product into a zero accumulator, at entry `(a, b)`. -/
theorem matmul_zero_apply {φ₁ φ₂ : FTy} (d : DotDims ⟨2, ![A, K]⟩ ⟨2, ![K, B]⟩ ⟨2, ![A, B]⟩) (hd : d = DotDims.plain A K B)
    (prec : Option ContractPrecision) (lhs : FVec Ideal ⟨2, ![A, K]⟩ φ₁) (rhs : FVec Ideal ⟨2, ![K, B]⟩ φ₂) (a : Fin A) (b : Fin B) :
    matmul d prec lhs rhs (constant ⟨2, ![A, B]⟩ .f32 0x00000000#32) (ix2 a b) = ∑ k : Fin K, lhs (ix2 a k) * rhs (ix2 k b) := by
  subst hd
  exact (Ideal.matmul_constant_zero_apply _ prec lhs rhs (ix2 a b)).trans (plain_sum A K B lhs rhs a b)

/-- A host `dot_general`, at entry `(a, b)`. -/
theorem dotGeneral_apply {φ₁ φ₂ : FTy} (d : DotDims ⟨2, ![A, K]⟩ ⟨2, ![K, B]⟩ ⟨2, ![A, B]⟩) (hd : d = DotDims.plain A K B)
    (prec : Option ContractPrecision) (lhs : FVec Ideal ⟨2, ![A, K]⟩ φ₁) (rhs : FVec Ideal ⟨2, ![K, B]⟩ φ₂) (a : Fin A) (b : Fin B) :
    Host.dotGeneral d prec lhs rhs (ix2 a b) = ∑ k : Fin K, lhs (ix2 a k) * rhs (ix2 k b) := by
  subst hd
  exact (Ideal.dotGeneral_apply _ prec .single lhs rhs (ix2 a b)).trans (plain_sum A K B lhs rhs a b)

end Cert.LibMatProd

end
-- ==== Proof.Mlp1Block.lean ====
/-
  One block of the edge perceptron, entry by entry.

  At a grid point the body holds 2000 edges' gathered node features (2000 × 9), their attributes (2000 × 512), the
  first layer's two row bands (9 × 512 and 512 × 512), its bias row, the second layer's matrix and its bias row.
  Entry (r, j) of what it stores is
    (∑ k, max ((∑ q<9, xe[r,q]·Wx[q,k] + ∑ q<512, ea[r,q]·We[q,k]) + b1[k]) 0 · W2[k,j]) + b2[j]:
  each matrix product into a zero accumulator is the plain sum over the shared axis, the bias rows are spread down
  the 2000 rows, and the changes of float format are the identity on the extended reals.
-/
import proofs.«414186_j67791763800206_2_alg».proof.Proof.Gen.KernelIdeal.Frame
import proofs.«414186_j67791763800206_2_alg».proof.Proof.Spec
import proofs.«414186_j67791763800206_2_alg».proof.Proof.LibMatProd
import Idealize.ShloMosaic.Lib.ValueIdx
import Idealize.ShloMosaic.Lib.Pipeline.Value

set_option maxRecDepth 16384

noncomputable section

namespace Cert.Mlp1Block

open Cert.KernelIdeal Cert.KernelIdeal.Gen Cert.Spec
open Idealize.ShloMosaic Idealize.ShloMosaic.ValueIdx

/-- The offset of a rectangle that starts at the origin of a rank-2 array. -/
theorem origin2 : (![0, 0] : Fin 2 → ℕ) = fun _ => 0 := by
  funext a; fin_cases a <;> rfl

/-- A bias row spread down 2000 rows reads, at (r, j), the row's entry j. -/
theorem bias_row (v : Vec Ideal S1x512 .f32) (r : Fin 2000) (j : Fin 512) :
    broadcastTo S2000x512 v broadcasts_S1x512_S2000x512 (ix2 r j) = v (ix2 (0 : Fin 1) j) := by
  refine broadcastTo_apply v _ (ix2 r j) (ix2 (0 : Fin 1) j) fun ax => ?_
  match ax with
  | ⟨0, _⟩ => rfl
  | ⟨1, _⟩ => rfl

/-- The body's stored value at entry (r, j), from the seven loaded blocks. -/
theorem pay_apply (v0 : Vec Ideal S2000x9 .f32) (v3 : Vec Ideal S2000x512 .f32) (v5 : Vec Ideal S9x512 .f32)
    (v8 : Vec Ideal S512x512 .f32) (v14 : Vec Ideal S1x512 .f32) (v21 : Vec Ideal S512x512 .f32)
    (v24 : Vec Ideal S1x512 .f32) (r : Fin 2000) (j : Fin 512) :
    k0_pay1 (F := Ideal) v0 v3 v5 v8 v14 v21 v24 (ix2 r j)
      = (∑ k : Fin 512,
          max (((∑ q : Fin 9, v0 (ix2 r q) * v5 (ix2 q k)) + ∑ q : Fin 512, v3 (ix2 r q) * v8 (ix2 q k))
                + v14 (ix2 (0 : Fin 1) k)) zeroF * v21 (ix2 k j))
        + v24 (ix2 (0 : Fin 1) j) := by
  unfold k0_pay1
  simp only [shapeCast_self]
  rw [truncf_apply, addf_apply, bias_row,
    Cert.LibMatProd.matmul_zero_apply (A := 2000) (K := 512) (B := 512) dot_S2000x512_S512x512_S2000x512_1_0_0_1_n_n rfl]
  congr 1
  refine Finset.sum_congr rfl fun k _ => ?_
  rw [truncf_apply, maximumf_apply, addf_apply, addf_apply, bias_row,
    Cert.LibMatProd.matmul_zero_apply (A := 2000) (K := 9) (B := 512) dot_S2000x9_S9x512_S2000x512_1_0_0_1_n_n rfl,
    Cert.LibMatProd.matmul_zero_apply (A := 2000) (K := 512) (B := 512) dot_S2000x512_S512x512_S2000x512_1_0_0_1_n_n rfl,
    broadcast_apply, truncf_apply]
  simp only [truncf_apply]
  rfl

/-- What the body leaves in the output window's buffer, at entry (r, j). -/
theorem out_apply (x0 : Vec Ideal S2000x9 .f32) (x1 : Vec Ideal S2000x512 .f32) (x2 : Vec Ideal S9x512 .f32)
    (x3 : Vec Ideal S512x512 .f32) (x4 : Vec Ideal S1x512 .f32) (x5 : Vec Ideal S512x512 .f32)
    (x6 : Vec Ideal S1x512 .f32) (r : Fin 2000) (j : Fin 512) :
    out0_7 (F := Ideal) x0 x1 x2 x3 x4 x5 x6 (ix2 r j)
      = (∑ k : Fin 512,
          max (((∑ q : Fin 9, x0 (ix2 r q) * x2 (ix2 q k)) + ∑ q : Fin 512, x1 (ix2 r q) * x3 (ix2 q k))
                + x4 (ix2 (0 : Fin 1) k)) zeroF * x5 (ix2 k j))
        + x6 (ix2 (0 : Fin 1) j) := by
  unfold out0_7
  rw [View.canon_unit_zero origin2]
  simp only [View.ld_unit_zero (S := S2000x9) origin2, View.ld_unit_zero (S := S2000x512) origin2,
    View.ld_unit_zero (S := S9x512) origin2, View.ld_unit_zero (S := S512x512) origin2,
    View.ld_unit_zero (S := S1x512) origin2]
  exact pay_apply x0 x1 x2 x3 x4 x5 x6 r j

end Cert.Mlp1Block

end
-- ==== Proof.Mlp1Value.lean ====
/-
  The edge perceptron's whole output array.

  Grid point t of 75 stores rows 2000·t … 2000·t + 1999 of the 150000 × 512 array: block t of ONE function of the
  arrays the region finds — entry (e, j) depends on row e of the gathered node features and of the edge attributes, and
  on the weight and bias arrays whole (their windows sit at block (0, 0) at every point). The 75 blocks tile the array,
  so after the region the array IS that function.
-/
import proofs.«414186_j67791763800206_2_alg».proof.Proof.Mlp1Block

set_option maxRecDepth 16384

noncomputable section

namespace Cert.Mlp1Value

open Cert.KernelIdeal Cert.KernelIdeal.Gen Cert.Spec
open Idealize.ShloMosaic Idealize.ShloMosaic.TcCoe Idealize.ShloMosaic.ValueIdx Idealize.SL.Sem
open Idealize.ShloMosaic.Pipeline (Dat)

/-- Entry (e, j) of the messages from the arrays as the region finds them: the gathered features, the attributes, the
    first layer's two row bands and bias row, the second layer's matrix and bias row. -/
def G (xe : S150000x9.Idx → EReal) (ea : S150000x512.Idx → EReal) (wx : S9x512.Idx → EReal) (we : S512x512.Idx → EReal)
    (b1 : S1x512.Idx → EReal) (w2 : S512x512.Idx → EReal) (b2 : S1x512.Idx → EReal) : S150000x512.Idx → EReal := fun i =>
  (∑ k : Fin 512,
      max (((∑ q : Fin 9, xe (ix2 (i 0) q) * wx (ix2 q k)) + ∑ q : Fin 512, ea (ix2 (i 0) q) * we (ix2 q k))
            + b1 (ix2 (0 : Fin 1) k)) zeroF * w2 (ix2 k (i 1)))
    + b2 (ix2 (0 : Fin 1) (i 1))

variable (V : (c : Dev nD) → (b : Ref sig .tc) → Buf (Elt Ideal) ((c : Thread nD τ).loc b))

/-- The printed index maps over the grid: the two row-blocked inputs and the output sit at block (t, 0), the five weight
    and bias windows at block (0, 0). -/
theorem idx_facts : ∀ t : Fin cfg0.N,
    win0_7.index t (0 : Fin 2) = t.val ∧ win0_7.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- WHAT POINT t WRITES BACK is block t of G of the arrays as the region finds them. -/
theorem flushed_eq (c : Dev nD) (t : Fin cfg0.N) :
    (dat0 V c).flushed 7 t = ((cfg0.win 7).blk t).view.read (Elt Ideal)
      (G (V c main_v4) (V c main_arg2) (V c main_v5) (V c main_v6) (V c main_v7) (V c main_arg7) (V c main_v8)) := by
  show (cfg0.win 7).cut (grid0.coords t) ((dat0 V c).after 7 t) = _
  rw [after0_7]
  obtain ⟨f70, f71, f00, f01, f10, f11, f20, f21, f30, f31, f40, f41, f50, f51, f60, f61⟩ := idx_facts t
  funext y
  have hy : (y : S2000x512.Idx) = ix2 (y 0) (y 1) := eq_ix2 (n0 := 2000) (n1 := 512) y
  refine (congrArg (out0_7 (F := Ideal) (iblk0 V c 0 t) (iblk0 V c 1 t) (iblk0 V c 2 t) (iblk0 V c 3 t) (iblk0 V c 4 t)
    (iblk0 V c 5 t) (iblk0 V c 6 t)) hy).trans ?_
  refine (Cert.Mlp1Block.out_apply (iblk0 V c 0 t) (iblk0 V c 1 t) (iblk0 V c 2 t) (iblk0 V c 3 t) (iblk0 V c 4 t)
    (iblk0 V c 5 t) (iblk0 V c 6 t) (y 0) (y 1)).trans ?_
  have hr : (y 0).val < 2000 := (y 0).isLt
  have hj : (y 1).val < 512 := (y 1).isLt
  -- each input block read where the output's rectangle says
  have e0 : ∀ q : Fin 9, iblk0 V c 0 t (ix2 (y 0) q) = V c main_v4 (ix2 ((((cfg0.win 7).blk t).view.emb y) 0) q) := fun q => by
    show V c main_v4 (((cfg0.win 0).blk t).view.emb (ix2 (y 0) q)) = _
    refine congrArg (V c main_v4) (funext fun a => Fin.ext ?_)
    match a with
    | ⟨0, _⟩ => show win0_0.index t (0 : Fin 2) * 2000 + 1 * (y 0).val = win0_7.index t (0 : Fin 2) * 2000 + 1 * (y 0).val; omega
    | ⟨1, _⟩ => show win0_0.index t (1 : Fin 2) * 9 + 1 * q.val = q.val; omega
  have e1 : ∀ q : Fin 512, iblk0 V c 1 t (ix2 (y 0) q) = V c main_arg2 (ix2 ((((cfg0.win 7).blk t).view.emb y) 0) q) := fun q => by
    show V c main_arg2 (((cfg0.win 1).blk t).view.emb (ix2 (y 0) q)) = _
    refine congrArg (V c main_arg2) (funext fun a => Fin.ext ?_)
    match a with
    | ⟨0, _⟩ => show win0_1.index t (0 : Fin 2) * 2000 + 1 * (y 0).val = win0_7.index t (0 : Fin 2) * 2000 + 1 * (y 0).val; omega
    | ⟨1, _⟩ => show win0_1.index t (1 : Fin 2) * 512 + 1 * q.val = q.val; omega
  have e2 : ∀ (q : Fin 9) (k : Fin 512), iblk0 V c 2 t (ix2 q k) = V c main_v5 (ix2 q k) := fun q k => by
    show V c main_v5 (((cfg0.win 2).blk t).view.emb (ix2 q k)) = _
    refine congrArg (V c main_v5) (funext fun a => Fin.ext ?_)
    match a with
    | ⟨0, _⟩ => show win0_2.index t (0 : Fin 2) * 9 + 1 * q.val = q.val; omega
    | ⟨1, _⟩ => show win0_2.index t (1 : Fin 2) * 512 + 1 * k.val = k.val; omega
  have e3 : ∀ (q : Fin 512) (k : Fin 512), iblk0 V c 3 t (ix2 q k) = V c main_v6 (ix2 q k) := fun q k => by
    show V c main_v6 (((cfg0.win 3).blk t).view.emb (ix2 q k)) = _
    refine congrArg (V c main_v6) (funext fun a => Fin.ext ?_)
    match a with
    | ⟨0, _⟩ => show win0_3.index t (0 : Fin 2) * 512 + 1 * q.val = q.val; omega
    | ⟨1, _⟩ => show win0_3.index t (1 : Fin 2) * 512 + 1 * k.val = k.val; omega
  have e4 : ∀ k : Fin 512, iblk0 V c 4 t (ix2 (0 : Fin 1) k) = V c main_v7 (ix2 (0 : Fin 1) k) := fun k => by
    show V c main_v7 (((cfg0.win 4).blk t).view.emb (ix2 (0 : Fin 1) k)) = _
    refine congrArg (V c main_v7) (funext fun a => Fin.ext ?_)
    match a with
    | ⟨0, _⟩ => show win0_4.index t (0 : Fin 2) * 1 + 1 * 0 = 0; omega
    | ⟨1, _⟩ => show win0_4.index t (1 : Fin 2) * 512 + 1 * k.val = k.val; omega
  have e5 : ∀ k : Fin 512, iblk0 V c 5 t (ix2 k (y 1)) = V c main_arg7 (ix2 k ((((cfg0.win 7).blk t).view.emb y) 1)) := fun k => by
    show V c main_arg7 (((cfg0.win 5).blk t).view.emb (ix2 k (y 1))) = _
    refine congrArg (V c main_arg7) (funext fun a => Fin.ext ?_)
    match a with
    | ⟨0, _⟩ => show win0_5.index t (0 : Fin 2) * 512 + 1 * k.val = k.val; omega
    | ⟨1, _⟩ => show win0_5.index t (1 : Fin 2) * 512 + 1 * (y 1).val = win0_7.index t (1 : Fin 2) * 512 + 1 * (y 1).val; omega
  have e6 : iblk0 V c 6 t (ix2 (0 : Fin 1) (y 1)) = V c main_v8 (ix2 (0 : Fin 1) ((((cfg0.win 7).blk t).view.emb y) 1)) := by
    show V c main_v8 (((cfg0.win 6).blk t).view.emb (ix2 (0 : Fin 1) (y 1))) = _
    refine congrArg (V c main_v8) (funext fun a => Fin.ext ?_)
    match a with
    | ⟨0, _⟩ => show win0_6.index t (0 : Fin 2) * 1 + 1 * 0 = 0; omega
    | ⟨1, _⟩ => show win0_6.index t (1 : Fin 2) * 512 + 1 * (y 1).val = win0_7.index t (1 : Fin 2) * 512 + 1 * (y 1).val; omega
  show _ = G (V c main_v4) (V c main_arg2) (V c main_v5) (V c main_v6) (V c main_v7) (V c main_arg7) (V c main_v8)
    (((cfg0.win 7).blk t).view.emb y)
  unfold G
  simp only [e0, e1, e2, e3, e4, e5, e6]

/-- An index of the array is in point t's block iff each coordinate is in the block's range on its axis. -/
theorem mem_blk (t : Fin cfg0.N) (i : S150000x512.Idx) :
    i ∈ ((cfg0.win 7).blk t).view.set ↔ ∀ a : Fin 2, win0_7.index t a * S2000x512.size a ≤ (i a).val
      ∧ (i a).val < win0_7.index t a * S2000x512.size a + S2000x512.size a := by
  show i ∈ ((View.whole main_v9).slice (win0_7.rect t)).set ↔ _
  rw [View.set_slice_whole, Rect.mem_set_unit]
  exact Iff.rfl

/-- Every index of the array lies in some point's block: row e in the block of point e / 2000. -/
theorem cover (i : S150000x512.Idx) : ∃ t : Fin cfg0.N, (cfg0.win 7).flush t = true ∧ i ∈ ((cfg0.win 7).blk t).view.set := by
  have hi0 : (i 0).val < 150000 := (i 0).isLt
  have hi1 : (i 1).val < 512 := (i 1).isLt
  have hN : cfg0.N = 75 := N_0
  let t : Fin cfg0.N := ⟨(i 0).val / 2000, by rw [hN]; omega⟩
  obtain ⟨f70, f71, -⟩ := idx_facts t
  have ht : t.val = (i 0).val / 2000 := rfl
  refine ⟨t, flush0_7 t, ?_⟩
  rw [mem_blk]
  intro a
  match a with
  | ⟨0, _⟩ => show win0_7.index t (0 : Fin 2) * 2000 ≤ (i 0).val ∧ (i 0).val < win0_7.index t (0 : Fin 2) * 2000 + 2000; omega
  | ⟨1, _⟩ => show win0_7.index t (1 : Fin 2) * 512 ≤ (i 1).val ∧ (i 1).val < win0_7.index t (1 : Fin 2) * 512 + 512; omega

/-- THE ARRAY after the region: G of the arrays as the region finds them. -/
theorem final (c : Dev nD) : (dat0 V c).arrAt 7 cfg0.N
    = G (V c main_v4) (V c main_arg2) (V c main_v5) (V c main_v6) (V c main_v7) (V c main_arg7) (V c main_v8) :=
  (dat0 V c).arrAt_eq_of_cover 7 _ (fun t _ => flushed_eq V c t) cover

end Cert.Mlp1Value

end
-- ==== Proof.TakeGather.lean ====
/-
  Under the precondition, a row take is the plain gather.

  Taking rows of x at idx along axis 0 wraps a negative index once (idx + N where idx < 0), gathers the rows at the
  wrapped index, and keeps a gathered row only where the wrapped index lies in [0, N - 1], putting a NaN row elsewhere.
  When every index satisfies -N ≤ idx < N (signed, 32 bits) the wrapped index lies in [0, N - 1] (no overflow in
  idx + N), so every mask bit is 1 and the result is the gather itself.
-/
import proofs.«414186_j67791763800206_2_alg».proof.Defs
import proofs.«414186_j67791763800206_2_alg».proof.KernelIdeal
import proofs.«414186_j67791763800206_2_alg».proof.Proof.Gen.KernelIdeal
import proofs.«414186_j67791763800206_2_alg».proof.Proof.Gen.Pre_finite_inputs
import Idealize.ShloMosaic.Lib.ReduceAll
import Idealize.ShloMosaic.Lib.StableHlo.Predicate
import Idealize.ShloMosaic.Lib.Affine
import Idealize.ShloMosaic.Lib.ValueIdx

noncomputable section

namespace Cert.TakeGather

open Idealize.ShloMosaic Idealize.ShloMosaic.ValueIdx

/-! ## The word fact: a wrapped index is in range -/

/-- For a signed 32-bit word w with -n ≤ w < n (0 < n < 2^30), the wrapped word (w + n where w < 0, else w) lies in
    [0, n - 1]: the sum does not overflow. -/
theorem wrap_in_range (w lo N top : BitVec 32) (n : Int) (hn0 : 0 < n) (hn1 : n < 2 ^ 30)
    (hlo : lo.toInt = -n) (hN : N.toInt = n) (htop : top.toInt = n - 1)
    (h1 : IntOp.cmpi .sge w lo = 1#1) (h2 : IntOp.cmpi .slt w N = 1#1) :
    IntOp.cmpi .sge (Scalar.select (IntOp.cmpi .slt w 0#32) (IntOp.addi w N) w) 0#32 = 1#1
      ∧ IntOp.cmpi .sle (Scalar.select (IntOp.cmpi .slt w 0#32) (IntOp.addi w N) w) top = 1#1 := by
  rw [IntOp.cmpi_sge] at h1
  rw [IntOp.cmpi_slt] at h2
  rw [hlo] at h1
  rw [hN] at h2
  have h0 : (0#32 : BitVec 32).toInt = 0 := by decide
  by_cases hneg : IntOp.cmpi .slt w 0#32 = 1#1
  · rw [hneg, select_one]
    rw [IntOp.cmpi_slt, h0] at hneg
    have hadd : (IntOp.addi w N).toInt = w.toInt + n := by
      show (w + N).toInt = _
      rw [BitVec.toInt_add, hN]
      have : (2 : Int) ^ 32 = 4294967296 := by norm_num
      have : (2 : Int) ^ 30 = 1073741824 := by norm_num
      rw [Int.bmod_def]
      split <;> omega
    rw [IntOp.cmpi_sge, IntOp.cmpi_sle, hadd, h0, htop]
    omega
  · rw [eq_zero_of_ne_one hneg, select_zero]
    rw [IntOp.cmpi_slt, h0] at hneg
    rw [IntOp.cmpi_sge, IntOp.cmpi_sle, h0, htop]
    omega

/-! ## A reduce by and of ones is one -/

/-- A left fold by and, from 1, over words that are all 1, is 1. -/
theorem foldl_andi_one {ι : Type} (f : ι → BitVec 1) (hf : ∀ n, f n = 1#1) :
    ∀ (l : List ι) (init : BitVec 1), init = 1#1 → l.foldl (fun r n => IntOp.andi r (f n)) init = 1#1
  | [], init, h => h
  | a :: l, init, h => by
    rw [List.foldl_cons]
    exact foldl_andi_one f hf l _ (IntOp.andi_eq_one.2 ⟨h, hf a⟩)

/-- A reduce by and, from an initial 1, of an array of ones is 1 at every result index. -/
theorem reduce_andi_of_all {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl]
  exact foldl_andi_one x hx _ _ (hinit _)

/-! ## The masked gather with every mask bit 1 -/

/-- A broadcast of an array whose every element is c reads c everywhere. -/
theorem broadcastInDim_eq_of_forall {α : Type} {s t : Shape} {d : Fin s.rank → Fin t.rank} (h : s.BroadcastsInDim t d)
    (m : s.Idx → α) (c : α) (hm : ∀ k, m k = c) (j : t.Idx) : broadcastInDim t d h m j = c := hm _

/-- The masked row take over any shapes: the index vector wrapped once and laid out as the gather's start indices C;
    the mask (0 ≤ C) and (C ≤ top) reduced by and; the gathered rows selected where the mask is 1 and a filler elsewhere.
    When every index lies in [-n, n) the mask is 1 everywhere and the select is the gather. -/
theorem masked_gather_eq {α : Type} {s0 sV sC sR sX s1 s11 : Shape}
    {d0 : Fin s0.rank → Fin sV.rank} (hb0 : s0.BroadcastsInDim sV d0)
    {d1 : Fin sV.rank → Fin sC.rank} (hb1 : sV.BroadcastsInDim sC d1)
    {d2 : Fin s0.rank → Fin sC.rank} (hb2 : s0.BroadcastsInDim sC d2)
    {d3 : Fin s1.rank → Fin s11.rank} (hb3 : s1.BroadcastsInDim s11 d3)
    {d4 : Fin s11.rank → Fin sC.rank} (hb4 : s11.BroadcastsInDim sC d4)
    {axes : List (Fin sC.rank)} (hr : sC.ReducesTo axes sV) (hS : 0 < s0.numel)
    {d5 : Fin sV.rank → Fin sR.rank} (hb5 : sV.BroadcastsInDim sR d5)
    {d6 : Fin s0.rank → Fin sR.rank} (hb6 : s0.BroadcastsInDim sR d6)
    (g : GatherDims sX sC sR) (lo N top : BitVec 32) (n : Int) (hn0 : 0 < n) (hn1 : n < 2 ^ 30)
    (hlo : lo.toInt = -n) (hN : N.toInt = n) (htop : top.toInt = n - 1)
    (x : sX.Idx → α) (nan : s0.Idx → α) (idx : IVec sV 32)
    (hidx : ∀ e, IntOp.cmpi .sge (idx e) lo = 1#1 ∧ IntOp.cmpi .slt (idx e) N = 1#1) :
    select (broadcastInDim sR d5 hb5 (Host.reduce IntOp.andi
        (andi
          (cmpi .sge
            (broadcastInDim sC d1 hb1
              (select (cmpi .slt idx (broadcastInDim sV d0 hb0 (constantI s0 32 0#32)))
                (addi idx (broadcastInDim sV d0 hb0 (constantI s0 32 N))) idx))
            (broadcastInDim sC d2 hb2 (constantI s0 32 0#32)))
          (cmpi .sle
            (broadcastInDim sC d1 hb1
              (select (cmpi .slt idx (broadcastInDim sV d0 hb0 (constantI s0 32 0#32)))
                (addi idx (broadcastInDim sV d0 hb0 (constantI s0 32 N))) idx))
            (broadcastInDim sC d4 hb4 (broadcastInDim s11 d3 hb3 (constantI s1 32 top)))))
        (constantI s0 1 1#1) hr hS))
      (Host.gather g x
        (broadcastInDim sC d1 hb1
          (select (cmpi .slt idx (broadcastInDim sV d0 hb0 (constantI s0 32 0#32)))
            (addi idx (broadcastInDim sV d0 hb0 (constantI s0 32 N))) idx)))
      (broadcastInDim sR d6 hb6 nan)
    = Host.gather g x
        (broadcastInDim sC d1 hb1
          (select (cmpi .slt idx (broadcastInDim sV d0 hb0 (constantI s0 32 0#32)))
            (addi idx (broadcastInDim sV d0 hb0 (constantI s0 32 N))) idx)) := by
  funext j
  -- the mask, read at any index of the index vector's shape, is 1
  have hmask : ∀ k : sV.Idx, Host.reduce IntOp.andi
        (andi
          (cmpi .sge
            (broadcastInDim sC d1 hb1
              (select (cmpi .slt idx (broadcastInDim sV d0 hb0 (constantI s0 32 0#32)))
                (addi idx (broadcastInDim sV d0 hb0 (constantI s0 32 N))) idx))
            (broadcastInDim sC d2 hb2 (constantI s0 32 0#32)))
          (cmpi .sle
            (broadcastInDim sC d1 hb1
              (select (cmpi .slt idx (broadcastInDim sV d0 hb0 (constantI s0 32 0#32)))
                (addi idx (broadcastInDim sV d0 hb0 (constantI s0 32 N))) idx))
            (broadcastInDim sC d4 hb4 (broadcastInDim s11 d3 hb3 (constantI s1 32 top)))))
        (constantI s0 1 1#1) hr hS k = 1#1 := by
    intro k
    refine reduce_andi_of_all _ _ hr hS (fun _ => rfl) (fun i => ?_) k
    -- at an index i of the column, the wrapped word is that of one entry e of the index vector
    obtain ⟨h1, h2⟩ := wrap_in_range (idx _) lo N top n hn0 hn1 hlo hN htop (hidx _).1 (hidx _).2
    exact IntOp.andi_eq_one.2 ⟨h1, h2⟩
  show Scalar.select _ _ _ = _
  rw [broadcastInDim_eq_of_forall hb5 _ 1#1 hmask j, select_one]

/-! ## The precondition's last four conjuncts, decoded -/

section Decode

open Cert.Pre_finite_inputs Cert.Pre_finite_inputs.Facts

variable [Cert.Pre_finite_inputs.Facts]

instance : Subsingleton (⟨0, ![]⟩ : Shape).Idx := ⟨fun a b => funext fun d => d.elim0⟩

/-- The last part of the predicate is 1: so is what came before it, every bit of the batch lower-bound compare, and the
    batch upper bound at every entry. -/
theorem part4_dec {F : FTy → Type} [FloatOps F] (arg4 : IVec S50000 32) (v65 : IVec S_ 1) (v67 : IVec S50000 1)
    (c25 : IVec S_ 1) (e : fn_part4 (F := F) arg4 v65 v67 c25 = fun _ => 1#1) :
    v65 ix0 = 1#1 ∧ (∀ n, v67 n = 1#1) ∧ ∀ n, IntOp.cmpi .slt (arg4 n) 64#32 = 1#1 := by
  have e0 := congrFun e ix0
  change IntOp.andi (IntOp.andi (v65 ix0) (Host.reduce IntOp.andi v67 c25 reducesTo_S50000_S_d0 h_S_ ix0))
    (Host.reduce IntOp.andi (cmpi .slt arg4 (broadcastInDim S50000 ![] bcast_S_S50000 (constantI S_ 32 64#32)))
      (constantI S_ 1 1#1) reducesTo_S50000_S_d0 h_S_ ix0) = 1#1 at e0
  obtain ⟨h1, h2⟩ := IntOp.andi_eq_one.1 e0
  obtain ⟨h3, h4⟩ := IntOp.andi_eq_one.1 h1
  exact ⟨h3, fun n => Host.reduce_andi_all _ _ _ _ _ h4 n, fun n => Host.reduce_andi_all _ _ _ _ _ h2 n⟩

/-- The third part of the predicate is 1: the edge column lies in [-50000, 50000) and the batch vector in [-64, 64),
    entry by entry. -/
theorem part3_dec {F : FTy → Type} [FloatOps F] (arg1 : IVec S2x150000 32) (arg4 : IVec S50000 32) (v48 : IVec S_ 1)
    (v49 v50 : FVec F S1 .f32) (e : fn_part3 (F := F) arg1 arg4 v48 v49 v50 = fun _ => 1#1) :
    (∀ k, IntOp.cmpi .sge (shapeCast S150000 (extractStridedSlice S1x150000 ![1, 0] arg1 slices_S2x150000_S1x150000_1_0)
            shapeCasts_S1x150000_S150000 k) 4294917296#32 = 1#1
        ∧ IntOp.cmpi .slt (shapeCast S150000 (extractStridedSlice S1x150000 ![1, 0] arg1 slices_S2x150000_S1x150000_1_0)
            shapeCasts_S1x150000_S150000 k) 50000#32 = 1#1)
      ∧ ∀ n, IntOp.cmpi .sge (arg4 n) 4294967232#32 = 1#1 ∧ IntOp.cmpi .slt (arg4 n) 64#32 = 1#1 := by
  obtain ⟨h65, h67, hlt⟩ := part4_dec (F := F) _ _ _ _ e
  obtain ⟨h59, h64⟩ := IntOp.andi_eq_one.1 h65
  obtain ⟨h53, h58⟩ := IntOp.andi_eq_one.1 h59
  exact ⟨fun k => ⟨Host.reduce_andi_all _ _ _ _ _ h58 k, Host.reduce_andi_all _ _ _ _ _ h64 k⟩, fun n => ⟨h67 n, hlt n⟩⟩

end Decode

/-! ## The two takes of the program -/

section Program

open Cert.KernelIdeal Cert.KernelIdeal.Facts₀ Cert.KernelIdeal.Facts

/-- The wrapped edge index as the gather's start-index column [150000, 1]: idx + 50000 where idx < 0, else idx. -/
abbrev wrapCol (idx : IVec S150000 32) : IVec S150000x1 32 :=
  broadcastInDim S150000x1 ![0] bcast_S150000_S150000x1_0
    (select (cmpi .slt idx (broadcastInDim S150000 ![] bcast_S_S150000 (constantI S_ 32 0#32)))
      (addi idx (broadcastInDim S150000 ![] bcast_S_S150000 (constantI S_ 32 50000#32))) idx)

/-- The rows of x taken at idx: gathered at the wrapped index where it lies in [0, 49999], NaN rows elsewhere. -/
abbrev takeRows (x : FVec Ideal S50000x9 .f32) (idx : IVec S150000 32) : FVec Ideal S150000x9 .f32 :=
  select
    (broadcastInDim S150000x9 ![0] bcast_S150000_S150000x9_0
      (Host.reduce IntOp.andi
        (andi
          (cmpi .sge (wrapCol idx) (broadcastInDim S150000x1 ![] bcast_S_S150000x1 (constantI S_ 32 0#32)))
          (cmpi .sle (wrapCol idx)
            (broadcastInDim S150000x1 ![0, 1] bcast_S1x1_S150000x1_0_1
              (broadcastInDim S1x1 ![1] bcast_S1_S1x1_1 (constantI S1 32 49999#32)))))
        (constantI S_ 1 1#1) reducesTo_S150000x1_S150000_d1 h_S_))
    (Host.gather gather_S50000x9_S150000x1_S150000x9_1_0_n_n_0_1_19 x (wrapCol idx))
    (broadcastInDim S150000x9 ![] bcast_S_S150000x9 (constant (F := Ideal) S_ .f32 0x7FC00000#32))

/-- With every edge index in [-50000, 50000) the take of x is the gather at the wrapped index. -/
theorem takeRows_eq (x : FVec Ideal S50000x9 .f32) (idx : IVec S150000 32)
    (hidx : ∀ e, IntOp.cmpi .sge (idx e) 4294917296#32 = 1#1 ∧ IntOp.cmpi .slt (idx e) 50000#32 = 1#1) :
    takeRows x idx = Host.gather gather_S50000x9_S150000x1_S150000x9_1_0_n_n_0_1_19 x (wrapCol idx) :=
  masked_gather_eq bcast_S_S150000 bcast_S150000_S150000x1_0 bcast_S_S150000x1 bcast_S1_S1x1_1 bcast_S1x1_S150000x1_0_1
    reducesTo_S150000x1_S150000_d1 h_S_ bcast_S150000_S150000x9_0 bcast_S_S150000x9
    gather_S50000x9_S150000x1_S150000x9_1_0_n_n_0_1_19 4294917296#32 50000#32 49999#32 50000 (by decide) (by norm_num)
    (by decide) (by decide) (by decide) x _ idx hidx

/-- The wrapped batch index as the gather's start-index column [50000, 1]: idx + 64 where idx < 0, else idx. -/
abbrev wrapBatch (idx : IVec S50000 32) : IVec S50000x1 32 :=
  broadcastInDim S50000x1 ![0] bcast_S50000_S50000x1_0
    (select (cmpi .slt idx (broadcastInDim S50000 ![] bcast_S_S50000 (constantI S_ 32 0#32)))
      (addi idx (broadcastInDim S50000 ![] bcast_S_S50000 (constantI S_ 32 64#32))) idx)

/-- The rows of u taken at idx: gathered at the wrapped index where it lies in [0, 63], NaN rows elsewhere. -/
abbrev takeU (u : FVec Ideal S64x16 .f32) (idx : IVec S50000 32) : FVec Ideal S50000x16 .f32 :=
  select
    (broadcastInDim S50000x16 ![0] bcast_S50000_S50000x16_0
      (Host.reduce IntOp.andi
        (andi
          (cmpi .sge (wrapBatch idx) (broadcastInDim S50000x1 ![] bcast_S_S50000x1 (constantI S_ 32 0#32)))
          (cmpi .sle (wrapBatch idx)
            (broadcastInDim S50000x1 ![0, 1] bcast_S1x1_S50000x1_0_1
              (broadcastInDim S1x1 ![1] bcast_S1_S1x1_1 (constantI S1 32 63#32)))))
        (constantI S_ 1 1#1) reducesTo_S50000x1_S50000_d1 h_S_))
    (Host.gather gather_S64x16_S50000x1_S50000x16_1_0_n_n_0_1_116 u (wrapBatch idx))
    (broadcastInDim S50000x16 ![] bcast_S_S50000x16 (constant (F := Ideal) S_ .f32 0x7FC00000#32))

/-- With every batch index in [-64, 64) the take of u is the gather at the wrapped index. -/
theorem takeU_eq (u : FVec Ideal S64x16 .f32) (idx : IVec S50000 32)
    (hidx : ∀ n, IntOp.cmpi .sge (idx n) 4294967232#32 = 1#1 ∧ IntOp.cmpi .slt (idx n) 64#32 = 1#1) :
    takeU u idx = Host.gather gather_S64x16_S50000x1_S50000x16_1_0_n_n_0_1_116 u (wrapBatch idx) :=
  masked_gather_eq bcast_S_S50000 bcast_S50000_S50000x1_0 bcast_S_S50000x1 bcast_S1_S1x1_1 bcast_S1x1_S50000x1_0_1
    reducesTo_S50000x1_S50000_d1 h_S_ bcast_S50000_S50000x16_0 bcast_S_S50000x16
    gather_S64x16_S50000x1_S50000x16_1_0_n_n_0_1_116 4294967232#32 64#32 63#32 64 (by decide) (by norm_num)
    (by decide) (by decide) (by decide) u _ idx hidx

/-! ## The precondition at the program's arguments -/

/-- Under the precondition every entry of the edge column (row 1 of the edge index) lies in [-50000, 50000). -/
theorem pre_col (m : (ℓ : Loc nD τ sig) → Buf (Elt Ideal) ℓ) (h : Cert.Pre_KernelIdeal m) (c : Dev nD) (e : S150000.Idx) :
    IntOp.cmpi .sge (shapeCast S150000 (extractStridedSlice S1x150000 ![1, 0]
          (m ((c.tc : Thread nD τ).loc main_arg1) : IVec S2x150000 32) slices_S2x150000_S1x150000_1_0)
        shapeCasts_S1x150000_S150000 e) 4294917296#32 = 1#1
      ∧ IntOp.cmpi .slt (shapeCast S150000 (extractStridedSlice S1x150000 ![1, 0]
          (m ((c.tc : Thread nD τ).loc main_arg1) : IVec S2x150000 32) slices_S2x150000_S1x150000_1_0)
        shapeCasts_S1x150000_S150000 e) 50000#32 = 1#1 :=
  (part3_dec (F := Ideal) _ _ _ _ _ (h c)).1 e

/-- Under the precondition every entry of the batch vector lies in [-64, 64). -/
theorem pre_batch (m : (ℓ : Loc nD τ sig) → Buf (Elt Ideal) ℓ) (h : Cert.Pre_KernelIdeal m) (c : Dev nD) (n : S50000.Idx) :
    IntOp.cmpi .sge ((m ((c.tc : Thread nD τ).loc main_arg4) : IVec S50000 32) n) 4294967232#32 = 1#1
      ∧ IntOp.cmpi .slt ((m ((c.tc : Thread nD τ).loc main_arg4) : IVec S50000 32) n) 64#32 = 1#1 :=
  (part3_dec (F := Ideal) _ _ _ _ _ (h c)).2 n

end Program

end Cert.TakeGather

end
-- ==== Proof.LibColumn.lean ====
/-
  A column kept by a row reduction, read at an index: an `[a]` vector viewed as the column `[a, 1]`, and a column
  `[a, 1]` spread over `b` columns. (What `keepdims` leaves of a row maximum or a row sum before it meets the rows again.)
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibColumn
-- ==== Proof.Mlp2Block.lean ====
/-
  One block of the node perceptron, entry by entry.

  At a grid point the body holds 2000 nodes' features (2000 × 9), the sums of the messages that reach them
  (2000 × 512), how many reach each (a 2000 × 1 column), their graphs' features (2000 × 16), the first layer's three row
  bands (9, 512 and 16 rows of 512), its bias row, the second layer's 512 × 1 matrix and its 1 × 1 bias. The mean
  message is the sum over the larger of the count and one, the count's column spread across the 512 lanes; entry (r, 0)
  of what the body stores is
    (∑ k, max (((∑ q<9, x[r,q]·Wx[q,k] + ∑ q<512, (s[r,q] / max(n[r], 1))·Wa[q,k]) + ∑ q<16, g[r,q]·Wu[q,k]) + b1[k]) 0 · W2[k,0]) + b2.
-/
import proofs.«414186_j67791763800206_2_alg».proof.Proof.Mlp1Block
import proofs.«414186_j67791763800206_2_alg».proof.Proof.LibColumn

set_option maxRecDepth 16384

noncomputable section

namespace Cert.Mlp2Block

open Cert.KernelIdeal Cert.KernelIdeal.Gen Cert.Spec
open Idealize.ShloMosaic Idealize.ShloMosaic.ValueIdx

/-- The one-entry bias spread down 2000 rows reads that entry everywhere. -/
theorem bias_one (v : Vec Ideal S1x1 .f32) (r : Fin 2000) (u : Fin 1) :
    broadcastTo S2000x1 v broadcasts_S1x1_S2000x1 (ix2 r u) = v (ix2 (0 : Fin 1) (0 : Fin 1)) := by
  refine broadcastTo_apply v _ (ix2 r u) (ix2 (0 : Fin 1) (0 : Fin 1)) fun ax => ?_
  match ax with
  | ⟨0, _⟩ => rfl
  | ⟨1, _⟩ => rfl

/-- The hidden layer at entry (r, k), from the eight loaded blocks. -/
theorem hidden_apply (v0 : Vec Ideal S2000x9 .f32) (v2 : Vec Ideal S2000x1 .f32) (v6 : Vec Ideal S2000x512 .f32)
    (v11 : Vec Ideal S2000x16 .f32) (v14 : Vec Ideal S9x512 .f32) (v17 : Vec Ideal S512x512 .f32)
    (v20 : Vec Ideal S16x512 .f32) (v28 : Vec Ideal S1x512 .f32) (r : Fin 2000) (k : Fin 512) :
    k1_pay2 (F := Ideal) v0 v2 v6 v11 v14 v17 v20 v28 (ix2 r k)
      = max ((((∑ q : Fin 9, v0 (ix2 r q) * v14 (ix2 q k))
              + ∑ q : Fin 512, Ideal.div (v6 (ix2 r q)) (max (v2 (ix2 r (0 : Fin 1))) oneF) * v17 (ix2 q k))
            + ∑ q : Fin 16, v11 (ix2 r q) * v20 (ix2 q k)) + v28 (ix2 (0 : Fin 1) k)) zeroF := by
  unfold k1_pay2
  simp only [shapeCast_self]
  rw [truncf_apply, maximumf_apply, addf_apply, addf_apply, addf_apply, Cert.Mlp1Block.bias_row, broadcast_apply,
    Cert.LibMatProd.matmul_zero_apply (A := 2000) (K := 9) (B := 512) dot_S2000x9_S9x512_S2000x512_1_0_0_1_n_n rfl,
    Cert.LibMatProd.matmul_zero_apply (A := 2000) (K := 512) (B := 512) dot_S2000x512_S512x512_S2000x512_1_0_0_1_n_n rfl,
    Cert.LibMatProd.matmul_zero_apply (A := 2000) (K := 16) (B := 512) dot_S2000x16_S16x512_S2000x512_1_0_0_1_n_n rfl]
  simp only [truncf_apply, divf_apply, maximumf_apply, broadcast_apply,
    Cert.LibColumn.broadcastTo_a1_ab_apply (a := 2000) (b := 512)]
  rfl

/-- The body's stored value at entry (r, u), from the hidden layer, the second layer's matrix and its bias. -/
theorem pay_apply (v34 : FVec Ideal S2000x512 .bf16) (v35 : Vec Ideal S512x1 .f32) (v38 : Vec Ideal S1x1 .f32)
    (r : Fin 2000) (u : Fin 1) :
    k1_pay1 (F := Ideal) v34 v35 v38 (ix2 r u)
      = (∑ k : Fin 512, v34 (ix2 r k) * v35 (ix2 k u)) + v38 (ix2 (0 : Fin 1) (0 : Fin 1)) := by
  unfold k1_pay1
  simp only [shapeCast_self]
  rw [addf_apply, bias_one,
    Cert.LibMatProd.matmul_zero_apply (A := 2000) (K := 512) (B := 1) dot_S2000x512_S512x1_S2000x1_1_0_0_1_n_n rfl]
  simp only [truncf_apply]

/-- What the body leaves in the output window's buffer, at entry (r, u). -/
theorem out_apply (x0 : Vec Ideal S2000x9 .f32) (x1 : Vec Ideal S2000x512 .f32) (x2 : Vec Ideal S2000x1 .f32)
    (x3 : Vec Ideal S2000x16 .f32) (x4 : Vec Ideal S9x512 .f32) (x5 : Vec Ideal S512x512 .f32)
    (x6 : Vec Ideal S16x512 .f32) (x7 : Vec Ideal S1x512 .f32) (x8 : Vec Ideal S512x1 .f32) (x9 : Vec Ideal S1x1 .f32)
    (r : Fin 2000) (u : Fin 1) :
    out1_10 (F := Ideal) x0 x1 x2 x3 x4 x5 x6 x7 x8 x9 (ix2 r u)
      = (∑ k : Fin 512,
          max ((((∑ q : Fin 9, x0 (ix2 r q) * x4 (ix2 q k))
                  + ∑ q : Fin 512, Ideal.div (x1 (ix2 r q)) (max (x2 (ix2 r (0 : Fin 1))) oneF) * x5 (ix2 q k))
                + ∑ q : Fin 16, x3 (ix2 r q) * x6 (ix2 q k)) + x7 (ix2 (0 : Fin 1) k)) zeroF * x8 (ix2 k u))
        + x9 (ix2 (0 : Fin 1) (0 : Fin 1)) := by
  unfold out1_10
  rw [View.canon_unit_zero Cert.Mlp1Block.origin2]
  simp only [View.ld_unit_zero (S := S2000x9) Cert.Mlp1Block.origin2, View.ld_unit_zero (S := S2000x512) Cert.Mlp1Block.origin2,
    View.ld_unit_zero (S := S2000x1) Cert.Mlp1Block.origin2, View.ld_unit_zero (S := S2000x16) Cert.Mlp1Block.origin2,
    View.ld_unit_zero (S := S9x512) Cert.Mlp1Block.origin2, View.ld_unit_zero (S := S512x512) Cert.Mlp1Block.origin2,
    View.ld_unit_zero (S := S16x512) Cert.Mlp1Block.origin2, View.ld_unit_zero (S := S1x512) Cert.Mlp1Block.origin2,
    View.ld_unit_zero (S := S512x1) Cert.Mlp1Block.origin2, View.ld_unit_zero (S := S1x1) Cert.Mlp1Block.origin2]
  rw [pay_apply]
  congr 1
  refine Finset.sum_congr rfl fun k _ => ?_
  rw [hidden_apply]

end Cert.Mlp2Block

end
-- ==== Proof.Mlp2Value.lean ====
/-
  The node perceptron's whole output array.

  Grid point t of 25 stores rows 2000·t … 2000·t + 1999 of the 50000 × 1 array: block t of ONE function of the arrays
  the region finds — entry (n, 0) depends on row n of the node features, of the message sums, of the counts' column and
  of the gathered graph features, and on the weight and bias arrays whole. The 25 blocks tile the array, so after the
  region the array IS that function.
-/
import proofs.«414186_j67791763800206_2_alg».proof.Proof.Mlp2Block

set_option maxRecDepth 16384

noncomputable section

namespace Cert.Mlp2Value

open Cert.KernelIdeal Cert.KernelIdeal.Gen Cert.Spec
open Idealize.ShloMosaic Idealize.ShloMosaic.TcCoe Idealize.ShloMosaic.ValueIdx Idealize.SL.Sem
open Idealize.ShloMosaic.Pipeline (Dat)

/-- Entry (n, u) of the output from the arrays as the region finds them: node features, message sums, the counts'
    column, graph features, the first layer's three row bands and bias row, the second layer's matrix and bias. -/
def G (x : S50000x9.Idx → EReal) (s : S50000x512.Idx → EReal) (n : S50000x1.Idx → EReal) (g : S50000x16.Idx → EReal)
    (wx : S9x512.Idx → EReal) (wa : S512x512.Idx → EReal) (wu : S16x512.Idx → EReal) (b1 : S1x512.Idx → EReal)
    (w2 : S512x1.Idx → EReal) (b2 : S1x1.Idx → EReal) : S50000x1.Idx → EReal := fun i =>
  (∑ k : Fin 512,
      max ((((∑ q : Fin 9, x (ix2 (i 0) q) * wx (ix2 q k))
              + ∑ q : Fin 512, Ideal.div (s (ix2 (i 0) q)) (max (n (ix2 (i 0) (0 : Fin 1))) oneF) * wa (ix2 q k))
            + ∑ q : Fin 16, g (ix2 (i 0) q) * wu (ix2 q k)) + b1 (ix2 (0 : Fin 1) k)) zeroF * w2 (ix2 k (i 1)))
    + b2 (ix2 (0 : Fin 1) (0 : Fin 1))

variable (V : (c : Dev nD) → (b : Ref sig .tc) → Buf (Elt Ideal) ((c : Thread nD τ).loc b))

/-- The printed index maps over the grid: the four row-blocked inputs and the output sit at block (t, 0), the six
    weight and bias windows at block (0, 0). -/
theorem idx_facts : ∀ t : Fin cfg1.N,
    win1_10.index t (0 : Fin 2) = t.val ∧ win1_10.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0 :=
  (by decide +kernel : ∀ t : Fin grid1.N, _)

-- ten windows' blocks are read one after another in this one declaration
set_option maxHeartbeats 1600000 in
/-- WHAT POINT t WRITES BACK is block t of G of the arrays as the region finds them. -/
theorem flushed_eq (c : Dev nD) (t : Fin cfg1.N) :
    (dat1 V c).flushed 10 t = ((cfg1.win 10).blk t).view.read (Elt Ideal)
      (G (V c main_arg0) (V c main_v13) (V c main_v18) (V c main_v19) (V c main_v20) (V c main_v21) (V c main_v22) (V c main_v23) (V c main_arg11) (V c main_v24)) := by
  show (cfg1.win 10).cut (grid1.coords t) ((dat1 V c).after 10 t) = _
  rw [after1_10]
  obtain ⟨fo0, fo1, f00, f01, f10, f11, f20, f21, f30, f31, f40, f41, f50, f51, f60, f61, f70, f71, f80, f81, f90, f91⟩ := idx_facts t
  funext y
  have hy : (y : S2000x1.Idx) = ix2 (y 0) (y 1) := eq_ix2 (n0 := 2000) (n1 := 1) y
  refine (congrArg (out1_10 (F := Ideal) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)) hy).trans ?_
  refine (Cert.Mlp2Block.out_apply (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (y 0) (y 1)).trans ?_
  have hr : (y 0).val < 2000 := (y 0).isLt
  have hu : (y 1).val < 1 := (y 1).isLt
  -- each input block read where the output's rectangle says
  have e0 : ∀ q : Fin 9, iblk1 V c 0 t (ix2 (y 0) q) = V c main_arg0 (ix2 ((((cfg1.win 10).blk t).view.emb y) 0) q) := fun q => by
    show V c main_arg0 (((cfg1.win 0).blk t).view.emb (ix2 (y 0) q)) = _
    refine congrArg (V c main_arg0) (funext fun a => Fin.ext ?_)
    match a with
    | ⟨0, _⟩ => show win1_0.index t (0 : Fin 2) * 2000 + 1 * (y 0).val = win1_10.index t (0 : Fin 2) * 2000 + 1 * (y 0).val; omega
    | ⟨1, _⟩ => show win1_0.index t (1 : Fin 2) * 9 + 1 * q.val = q.val; omega
  have e1 : ∀ q : Fin 512, iblk1 V c 1 t (ix2 (y 0) q) = V c main_v13 (ix2 ((((cfg1.win 10).blk t).view.emb y) 0) q) := fun q => by
    show V c main_v13 (((cfg1.win 1).blk t).view.emb (ix2 (y 0) q)) = _
    refine congrArg (V c main_v13) (funext fun a => Fin.ext ?_)
    match a with
    | ⟨0, _⟩ => show win1_1.index t (0 : Fin 2) * 2000 + 1 * (y 0).val = win1_10.index t (0 : Fin 2) * 2000 + 1 * (y 0).val; omega
    | ⟨1, _⟩ => show win1_1.index t (1 : Fin 2) * 512 + 1 * q.val = q.val; omega
  have e2 : iblk1 V c 2 t (ix2 (y 0) (0 : Fin 1)) = V c main_v18 (ix2 ((((cfg1.win 10).blk t).view.emb y) 0) (0 : Fin 1)) := by
    show V c main_v18 (((cfg1.win 2).blk t).view.emb (ix2 (y 0) (0 : Fin 1))) = _
    refine congrArg (V c main_v18) (funext fun a => Fin.ext ?_)
    match a with
    | ⟨0, _⟩ => show win1_2.index t (0 : Fin 2) * 2000 + 1 * (y 0).val = win1_10.index t (0 : Fin 2) * 2000 + 1 * (y 0).val; omega
    | ⟨1, _⟩ => show win1_2.index t (1 : Fin 2) * 1 + 1 * 0 = 0; omega
  have e3 : ∀ q : Fin 16, iblk1 V c 3 t (ix2 (y 0) q) = V c main_v19 (ix2 ((((cfg1.win 10).blk t).view.emb y) 0) q) := fun q => by
    show V c main_v19 (((cfg1.win 3).blk t).view.emb (ix2 (y 0) q)) = _
    refine congrArg (V c main_v19) (funext fun a => Fin.ext ?_)
    match a with
    | ⟨0, _⟩ => show win1_3.index t (0 : Fin 2) * 2000 + 1 * (y 0).val = win1_10.index t (0 : Fin 2) * 2000 + 1 * (y 0).val; omega
    | ⟨1, _⟩ => show win1_3.index t (1 : Fin 2) * 16 + 1 * q.val = q.val; omega
  have e4 : ∀ (q : Fin 9) (k : Fin 512), iblk1 V c 4 t (ix2 q k) = V c main_v20 (ix2 q k) := fun q k => by
    show V c main_v20 (((cfg1.win 4).blk t).view.emb (ix2 q k)) = _
    refine congrArg (V c main_v20) (funext fun a => Fin.ext ?_)
    match a with
    | ⟨0, _⟩ => show win1_4.index t (0 : Fin 2) * 9 + 1 * q.val = q.val; omega
    | ⟨1, _⟩ => show win1_4.index t (1 : Fin 2) * 512 + 1 * k.val = k.val; omega
  have e5 : ∀ (q : Fin 512) (k : Fin 512), iblk1 V c 5 t (ix2 q k) = V c main_v21 (ix2 q k) := fun q k => by
    show V c main_v21 (((cfg1.win 5).blk t).view.emb (ix2 q k)) = _
    refine congrArg (V c main_v21) (funext fun a => Fin.ext ?_)
    match a with
    | ⟨0, _⟩ => show win1_5.index t (0 : Fin 2) * 512 + 1 * q.val = q.val; omega
    | ⟨1, _⟩ => show win1_5.index t (1 : Fin 2) * 512 + 1 * k.val = k.val; omega
  have e6 : ∀ (q : Fin 16) (k : Fin 512), iblk1 V c 6 t (ix2 q k) = V c main_v22 (ix2 q k) := fun q k => by
    show V c main_v22 (((cfg1.win 6).blk t).view.emb (ix2 q k)) = _
    refine congrArg (V c main_v22) (funext fun a => Fin.ext ?_)
    match a with
    | ⟨0, _⟩ => show win1_6.index t (0 : Fin 2) * 16 + 1 * q.val = q.val; omega
    | ⟨1, _⟩ => show win1_6.index t (1 : Fin 2) * 512 + 1 * k.val = k.val; omega
  have e7 : ∀ k : Fin 512, iblk1 V c 7 t (ix2 (0 : Fin 1) k) = V c main_v23 (ix2 (0 : Fin 1) k) := fun k => by
    show V c main_v23 (((cfg1.win 7).blk t).view.emb (ix2 (0 : Fin 1) k)) = _
    refine congrArg (V c main_v23) (funext fun a => Fin.ext ?_)
    match a with
    | ⟨0, _⟩ => show win1_7.index t (0 : Fin 2) * 1 + 1 * 0 = 0; omega
    | ⟨1, _⟩ => show win1_7.index t (1 : Fin 2) * 512 + 1 * k.val = k.val; omega
  have e8 : ∀ k : Fin 512, iblk1 V c 8 t (ix2 k (y 1)) = V c main_arg11 (ix2 k ((((cfg1.win 10).blk t).view.emb y) 1)) := fun k => by
    show V c main_arg11 (((cfg1.win 8).blk t).view.emb (ix2 k (y 1))) = _
    refine congrArg (V c main_arg11) (funext fun a => Fin.ext ?_)
    match a with
    | ⟨0, _⟩ => show win1_8.index t (0 : Fin 2) * 512 + 1 * k.val = k.val; omega
    | ⟨1, _⟩ => show win1_8.index t (1 : Fin 2) * 1 + 1 * (y 1).val = win1_10.index t (1 : Fin 2) * 1 + 1 * (y 1).val; omega
  have e9 : iblk1 V c 9 t (ix2 (0 : Fin 1) (0 : Fin 1)) = V c main_v24 (ix2 (0 : Fin 1) (0 : Fin 1)) := by
    show V c main_v24 (((cfg1.win 9).blk t).view.emb (ix2 (0 : Fin 1) (0 : Fin 1))) = _
    refine congrArg (V c main_v24) (funext fun a => Fin.ext ?_)
    match a with
    | ⟨0, _⟩ => show win1_9.index t (0 : Fin 2) * 1 + 1 * 0 = 0; omega
    | ⟨1, _⟩ => show win1_9.index t (1 : Fin 2) * 1 + 1 * 0 = 0; omega
  show _ = G (V c main_arg0) (V c main_v13) (V c main_v18) (V c main_v19) (V c main_v20) (V c main_v21) (V c main_v22) (V c main_v23) (V c main_arg11) (V c main_v24)
    (((cfg1.win 10).blk t).view.emb y)
  unfold G
  simp only [e0, e1, e2, e3, e4, e5, e6, e7, e8, e9]

/-- An index of the array is in point t's block iff each coordinate is in the block's range on its axis. -/
theorem mem_blk (t : Fin cfg1.N) (i : S50000x1.Idx) :
    i ∈ ((cfg1.win 10).blk t).view.set ↔ ∀ a : Fin 2, win1_10.index t a * S2000x1.size a ≤ (i a).val
      ∧ (i a).val < win1_10.index t a * S2000x1.size a + S2000x1.size a := by
  show i ∈ ((View.whole main_v25).slice (win1_10.rect t)).set ↔ _
  rw [View.set_slice_whole, Rect.mem_set_unit]
  exact Iff.rfl

/-- Every index of the array lies in some point's block: row n in the block of point n / 2000. -/
theorem cover (i : S50000x1.Idx) : ∃ t : Fin cfg1.N, (cfg1.win 10).flush t = true ∧ i ∈ ((cfg1.win 10).blk t).view.set := by
  have hi0 : (i 0).val < 50000 := (i 0).isLt
  have hi1 : (i 1).val < 1 := (i 1).isLt
  have hN : cfg1.N = 25 := N_1
  let t : Fin cfg1.N := ⟨(i 0).val / 2000, by rw [hN]; omega⟩
  obtain ⟨fo0, fo1, -⟩ := idx_facts t
  have ht : t.val = (i 0).val / 2000 := rfl
  refine ⟨t, flush1_10 t, ?_⟩
  rw [mem_blk]
  intro a
  match a with
  | ⟨0, _⟩ => show win1_10.index t (0 : Fin 2) * 2000 ≤ (i 0).val ∧ (i 0).val < win1_10.index t (0 : Fin 2) * 2000 + 2000; omega
  | ⟨1, _⟩ => show win1_10.index t (1 : Fin 2) * 1 ≤ (i 1).val ∧ (i 1).val < win1_10.index t (1 : Fin 2) * 1 + 1; omega

/-- THE ARRAY after the region: G of the arrays as the region finds them. -/
theorem final (c : Dev nD) : (dat1 V c).arrAt 10 cfg1.N
    = G (V c main_arg0) (V c main_v13) (V c main_v18) (V c main_v19) (V c main_v20) (V c main_v21) (V c main_v22) (V c main_v23) (V c main_arg11) (V c main_v24) :=
  (dat1 V c).arrAt_eq_of_cover 10 _ (fun t _ => flushed_eq V c t) cover

end Cert.Mlp2Value

end
-- ==== Proof.RefRead.lean ====
/-
  The reference program read at an index.

  Every stage of the reference is a function of the program's arguments. Read at one index, the edge stage is the
  two-layer perceptron of the gathered node features beside the edge attributes, and the node stage is the same shape of
  perceptron over the node's features, the mean of the messages that reach it and its graph's features. A product with
  a concatenated operand is one sum over the joined axis; it splits into one sum per piece, and each entry of the
  concatenation is then the entry of the piece its column falls in.
-/
import proofs.«414186_j67791763800206_2_alg».proof.Proof.Gen.ReferenceIdeal.Read
import proofs.«414186_j67791763800206_2_alg».proof.Proof.Spec
import proofs.«414186_j67791763800206_2_alg».proof.Proof.LibMatProd

noncomputable section

namespace Cert.RefRead

open Cert.ReferenceIdeal Cert.ReferenceIdeal.Gen Cert.ReferenceIdeal.Read Idealize.ShloMosaic Idealize.ShloMosaic.ValueIdx
open Cert.Spec

variable (x0 : (⟨S50000x9, .f32⟩ : BufTy).Contents (Elt Ideal)) (x1 : (⟨S2x150000, .i32⟩ : BufTy).Contents (Elt Ideal))
  (x2 : (⟨S150000x512, .f32⟩ : BufTy).Contents (Elt Ideal)) (x3 : (⟨S64x16, .f32⟩ : BufTy).Contents (Elt Ideal))
  (x4 : (⟨S50000, .i32⟩ : BufTy).Contents (Elt Ideal)) (x5 : (⟨S521x512, .f32⟩ : BufTy).Contents (Elt Ideal))
  (x6 : (⟨S512, .f32⟩ : BufTy).Contents (Elt Ideal)) (x7 : (⟨S512x512, .f32⟩ : BufTy).Contents (Elt Ideal))
  (x8 : (⟨S512, .f32⟩ : BufTy).Contents (Elt Ideal)) (x9 : (⟨S537x512, .f32⟩ : BufTy).Contents (Elt Ideal))
  (x10 : (⟨S512, .f32⟩ : BufTy).Contents (Elt Ideal)) (x11 : (⟨S512x1, .f32⟩ : BufTy).Contents (Elt Ideal))
  (x12 : (⟨S1, .f32⟩ : BufTy).Contents (Elt Ideal))

/-! ## The edge stage -/

/-- The edge input's first nine columns are the gathered node features. -/
theorem edgeIn_lo (e : Fin 150000) (q : Fin 9) :
    val_main_v11 (F := Ideal) x0 x1 x2 (ix2 e (lo9 q)) = val_main_v10 (F := Ideal) x0 x1 (ix2 e q) := by
  unfold val_main_v11
  exact concatenate_pair_apply_left 1 _ _ concatenates_S150000x9_S150000x512_S150000x521_d1 _ rfl (ix2 e q) (fun b => by
    match b with
    | ⟨0, _⟩ => rfl
    | ⟨1, _⟩ => rfl)

/-- Its other 512 columns are the edge attributes. -/
theorem edgeIn_hi (e : Fin 150000) (q : Fin 512) :
    val_main_v11 (F := Ideal) x0 x1 x2 (ix2 e (hi512 q)) = x2 (ix2 e q) := by
  unfold val_main_v11
  exact concatenate_pair_apply_right 1 _ _ concatenates_S150000x9_S150000x512_S150000x521_d1 _ rfl rfl (ix2 e q)
    (fun b hb => by
      match b with
      | ⟨0, _⟩ => rfl
      | ⟨1, _⟩ => exact absurd rfl hb)
    (by show q.val + 9 = 9 + q.val; omega)

/-- The first layer's product: nine terms from the node features and 512 from the edge attributes. -/
theorem edgeLin1 (e : Fin 150000) (k : Fin 512) :
    val_main_v12 (F := Ideal) x0 x1 x2 x5 (ix2 e k)
      = (∑ q : Fin 9, val_main_v10 (F := Ideal) x0 x1 (ix2 e q) * x5 (ix2 (lo9 q) k))
        + ∑ q : Fin 512, x2 (ix2 e q) * x5 (ix2 (hi512 q) k) := by
  unfold val_main_v12
  rw [Cert.LibMatProd.dotGeneral_apply dot_S150000x521_S521x512_S150000x512_1_0_0_1_n_n rfl none _ _ e k, sum_521]
  simp only [edgeIn_lo, edgeIn_hi]

/-- A bias of 512 entries, spread over the rows, read at an entry. -/
theorem bias1 (e : Fin 150000) (k : Fin 512) : val_main_v14 (F := Ideal) x6 (ix2 e k) = x6 (ix1 k) := by
  rw [val_main_v14_apply, val_main_v13_apply]
  exact congrArg x6 (funext fun a => by match a with | ⟨0, _⟩ => rfl)

theorem bias2 (e : Fin 150000) (k : Fin 512) : val_main_v19 (F := Ideal) x8 (ix2 e k) = x8 (ix1 k) := by
  rw [val_main_v19_apply, val_main_v18_apply]
  exact congrArg x8 (funext fun a => by match a with | ⟨0, _⟩ => rfl)

/-- The rectified first layer. -/
theorem edgeHid (e : Fin 150000) (k : Fin 512) :
    val_main_v16 (F := Ideal) x0 x1 x2 x5 x6 (ix2 e k)
      = max (((∑ q : Fin 9, val_main_v10 (F := Ideal) x0 x1 (ix2 e q) * x5 (ix2 (lo9 q) k))
          + ∑ q : Fin 512, x2 (ix2 e q) * x5 (ix2 (hi512 q) k)) + x6 (ix1 k)) zeroF := by
  rw [val_main_v16_apply, val_main_v15_apply, edgeLin1, bias1, val_main_call0_v0_apply, val_main_call0_cst_apply]
  rfl

/-- The edge stage is the message of the specification. -/
theorem ref_h : val_main_v20 (F := Ideal) x0 x1 x2 x5 x6 x7 x8
    = Cert.Spec.H (val_main_v10 (F := Ideal) x0 x1) x2 x5 x6 x7 x8 := by
  funext i
  obtain ⟨e, j, rfl⟩ : ∃ (e : Fin 150000) (j : Fin 512), i = ix2 e j := ⟨i 0, i 1, eq_ix2 i⟩
  rw [val_main_v20_apply, bias2]
  unfold val_main_v17
  rw [Cert.LibMatProd.dotGeneral_apply dot_S150000x512_S512x512_S150000x512_1_0_0_1_n_n rfl none _ _ e j]
  simp only [edgeHid]
  rfl

/-! ## The node stage -/

/-- The mean of the messages that reach a node: their sum over the larger of their count and one. -/
theorem agg (n : Fin 50000) (q : Fin 512) :
    val_main_v32 (F := Ideal) x0 x1 x2 x5 x6 x7 x8 (ix2 n q)
      = Ideal.div (val_main_v23 (F := Ideal) x0 x1 x2 x5 x6 x7 x8 (ix2 n q))
          (max (val_main_v27 (F := Ideal) x1 (ix1 n)) oneF) := by
  have h : idx_main_v30 (idx_main_v31 (ix2 n q)) = ix1 n := funext fun a => by match a with | ⟨0, _⟩ => rfl
  rw [val_main_v32_apply, val_main_v31_apply, val_main_v30_apply, h, val_main_v29_apply, val_main_v28_apply,
    val_main_cst_3_apply]
  rfl

/-- The node input's first nine columns are the node's features … -/
theorem nodeIn_a (n : Fin 50000) (q : Fin 9) :
    val_main_v40 (F := Ideal) x0 x1 x2 x3 x4 x5 x6 x7 x8 (ix2 n (a9 q)) = x0 (ix2 n q) := by
  unfold val_main_v40
  exact concatenate_apply_piece 1 _ _ (ix2 n (a9 q)) 0 (by show (0 : Nat) < 3; omega)
    S50000x9 _ rfl rfl 0 rfl (ix2 n q)
    (fun b hb => by
      match b with
      | ⟨0, _⟩ => rfl
      | ⟨1, _⟩ => exact absurd rfl hb)
    (Nat.zero_add _)

/-- … the next 512 the mean message … -/
theorem nodeIn_b (n : Fin 50000) (q : Fin 512) :
    val_main_v40 (F := Ideal) x0 x1 x2 x3 x4 x5 x6 x7 x8 (ix2 n (b512 q))
      = val_main_v32 (F := Ideal) x0 x1 x2 x5 x6 x7 x8 (ix2 n q) := by
  unfold val_main_v40
  exact concatenate_apply_piece 1 _ _ (ix2 n (b512 q)) 1 (by show (1 : Nat) < 3; omega)
    S50000x512 _ rfl rfl 9 rfl (ix2 n q)
    (fun b hb => by
      match b with
      | ⟨0, _⟩ => rfl
      | ⟨1, _⟩ => exact absurd rfl hb)
    rfl

/-- … and the last sixteen the features of the node's graph. -/
theorem nodeIn_c (n : Fin 50000) (q : Fin 16) :
    val_main_v40 (F := Ideal) x0 x1 x2 x3 x4 x5 x6 x7 x8 (ix2 n (c16 q))
      = val_main_v39 (F := Ideal) x3 x4 (ix2 n q) := by
  unfold val_main_v40
  exact concatenate_apply_piece 1 _ _ (ix2 n (c16 q)) 2 (by show (2 : Nat) < 3; omega)
    S50000x16 _ rfl rfl 521 rfl (ix2 n q)
    (fun b hb => by
      match b with
      | ⟨0, _⟩ => rfl
      | ⟨1, _⟩ => exact absurd rfl hb)
    rfl

/-- The first layer's product: nine, 512 and sixteen terms. -/
theorem nodeLin1 (n : Fin 50000) (k : Fin 512) :
    val_main_v41 (F := Ideal) x0 x1 x2 x3 x4 x5 x6 x7 x8 x9 (ix2 n k)
      = ((∑ q : Fin 9, x0 (ix2 n q) * x9 (ix2 (a9 q) k))
          + ∑ q : Fin 512, Ideal.div (val_main_v23 (F := Ideal) x0 x1 x2 x5 x6 x7 x8 (ix2 n q))
              (max (val_main_v27 (F := Ideal) x1 (ix1 n)) oneF) * x9 (ix2 (b512 q) k))
        + ∑ q : Fin 16, val_main_v39 (F := Ideal) x3 x4 (ix2 n q) * x9 (ix2 (c16 q) k) := by
  unfold val_main_v41
  rw [Cert.LibMatProd.dotGeneral_apply dot_S50000x537_S537x512_S50000x512_1_0_0_1_n_n rfl none _ _ n k, sum_537]
  simp only [nodeIn_a, nodeIn_b, nodeIn_c, agg]

theorem bias3 (n : Fin 50000) (k : Fin 512) : val_main_v43 (F := Ideal) x10 (ix2 n k) = x10 (ix1 k) := by
  rw [val_main_v43_apply, val_main_v42_apply]
  exact congrArg x10 (funext fun a => by match a with | ⟨0, _⟩ => rfl)

theorem bias4 (n : Fin 50000) : val_main_v48 (F := Ideal) x12 (ix2 n (0 : Fin 1)) = x12 (ix1 (0 : Fin 1)) := by
  rw [val_main_v48_apply, val_main_v47_apply]
  exact congrArg x12 (funext fun a => by match a with | ⟨0, _⟩ => rfl)

/-- The rectified first layer. -/
theorem nodeHid (n : Fin 50000) (k : Fin 512) :
    val_main_v45 (F := Ideal) x0 x1 x2 x3 x4 x5 x6 x7 x8 x9 x10 (ix2 n k)
      = max ((((∑ q : Fin 9, x0 (ix2 n q) * x9 (ix2 (a9 q) k))
          + ∑ q : Fin 512, Ideal.div (val_main_v23 (F := Ideal) x0 x1 x2 x5 x6 x7 x8 (ix2 n q))
              (max (val_main_v27 (F := Ideal) x1 (ix1 n)) oneF) * x9 (ix2 (b512 q) k))
        + ∑ q : Fin 16, val_main_v39 (F := Ideal) x3 x4 (ix2 n q) * x9 (ix2 (c16 q) k)) + x10 (ix1 k)) zeroF := by
  rw [val_main_v45_apply, val_main_v44_apply, nodeLin1, bias3, val_main_call1_v0_apply, val_main_call1_cst_apply]
  rfl

/-- The node stage is the output of the specification. -/
theorem ref_out : val_main_v49 (F := Ideal) x0 x1 x2 x3 x4 x5 x6 x7 x8 x9 x10 x11 x12
    = Cert.Spec.OUT x0 (val_main_v23 (F := Ideal) x0 x1 x2 x5 x6 x7 x8) (val_main_v27 (F := Ideal) x1)
        (val_main_v39 (F := Ideal) x3 x4) x9 x10 x11 x12 := by
  funext i
  obtain ⟨n, o, rfl⟩ : ∃ (n : Fin 50000) (o : Fin 1), i = ix2 n o := ⟨i 0, i 1, eq_ix2 i⟩
  have ho : o = 0 := Fin.fin_one_eq_zero o
  subst ho
  rw [val_main_v49_apply, bias4]
  unfold val_main_v46
  rw [Cert.LibMatProd.dotGeneral_apply dot_S50000x512_S512x1_S50000x1_1_0_0_1_n_n rfl none _ _ n (0 : Fin 1)]
  simp only [nodeHid]
  rfl

end Cert.RefRead

end
-- ==== Proof.KernelValue.lean ====
/-
  What the kernel's program computes, read off its run.

  Before the first pallas_call the host slices the edge list into its two rows, gathers each edge's source node
  features (under the precondition every index is in range, so the masked gather is the plain one), cuts the first
  layer's matrix into its first nine rows and its other 512, and views the two bias vectors as rows. The first region
  then leaves the messages: the edge perceptron of the gathered features and the attributes, with the matrix read whole
  again (row q of the upper band is row q, row q of the lower band is row 9 + q).
  Between the two regions the host adds the messages up at their destination rows and counts them (the same two
  scatter-adds of the same destination row as the reference's), gathers each node's graph features, and cuts the second
  perceptron's matrix into its three row bands. The second region leaves the node perceptron of those arrays, which,
  with the matrix read whole again, is the reference's result term of the same thirteen arguments.
-/
import proofs.«414186_j67791763800206_2_alg».proof.Proof.RunValue
import proofs.«414186_j67791763800206_2_alg».proof.Proof.Mlp1Value
import proofs.«414186_j67791763800206_2_alg».proof.Proof.TakeGather
import proofs.«414186_j67791763800206_2_alg».proof.Proof.Mlp2Value
import proofs.«414186_j67791763800206_2_alg».proof.Proof.RefRead
import Idealize.ShloMosaic.Lib.StableHlo.Run

set_option maxRecDepth 16384

noncomputable section

namespace Cert.KernelValue

open Cert.KernelIdeal Cert.KernelIdeal.Gen Cert.Spec Cert.TakeGather
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The edge list's second row: each edge's source node. -/
abbrev colOf (c : Dev nD) : IVec S150000 32 :=
  shapeCast S150000 (extractStridedSlice S1x150000 ![1, 0] (m ((c.tc : Thread nD τ).loc main_arg1) : IVec S2x150000 32)
    slices_S2x150000_S1x150000_1_0) shapeCasts_S1x150000_S150000
/-- The edge list's first row: each edge's destination node. -/
abbrev rowOf (c : Dev nD) : IVec S150000 32 :=
  shapeCast S150000 (extractStridedSlice S1x150000 ![0, 0] (m ((c.tc : Thread nD τ).loc main_arg1) : IVec S2x150000 32)
    slices_S2x150000_S1x150000_0_0) shapeCasts_S1x150000_S150000

/-! ## What the first region finds -/

-- the gathered rows are the last of the twenty-three operations of their stretch
set_option maxHeartbeats 1600000 in
theorem in0_xe (c : Dev nD) : V3 m ρ c main_v4
    = takeRows (m ((c.tc : Thread nD τ).loc main_arg0)) (colOf m c) := by
  show StableHlo.after hostOps0_2 (StableHlo.after hostOps0_1 (StableHlo.after hostOps0 (W0 m ρ c))) (Proc.devRef .tc main_v4) = _
  after_results
  simp only [TRef.toBuf, TRef.ofBuf, cast_eq]
  rfl

theorem in0_ea (c : Dev nD) : V3 m ρ c main_arg2 = m ((c.tc : Thread nD τ).loc main_arg2) := by
  show StableHlo.after hostOps0_2 (StableHlo.after hostOps0_1 (StableHlo.after hostOps0 (W0 m ρ c))) (Proc.devRef .tc main_arg2) = _
  after_results

theorem in0_wx (c : Dev nD) : V3 m ρ c main_v5
    = extractStridedSlice S9x512 ![0, 0] (m ((c.tc : Thread nD τ).loc main_arg5)) slices_S521x512_S9x512_0_0 := by
  show StableHlo.after hostOps0_2 (StableHlo.after hostOps0_1 (StableHlo.after hostOps0 (W0 m ρ c))) (Proc.devRef .tc main_v5) = _
  after_results

theorem in0_we (c : Dev nD) : V3 m ρ c main_v6
    = extractStridedSlice S512x512 ![9, 0] (m ((c.tc : Thread nD τ).loc main_arg5)) slices_S521x512_S512x512_9_0 := by
  show StableHlo.after hostOps0_2 (StableHlo.after hostOps0_1 (StableHlo.after hostOps0 (W0 m ρ c))) (Proc.devRef .tc main_v6) = _
  after_results

theorem in0_b1 (c : Dev nD) : V3 m ρ c main_v7
    = shapeCast S1x512 (m ((c.tc : Thread nD τ).loc main_arg6)) shapeCasts_S512_S1x512 := by
  show StableHlo.after hostOps0_2 (StableHlo.after hostOps0_1 (StableHlo.after hostOps0 (W0 m ρ c))) (Proc.devRef .tc main_v7) = _
  after_results
  rfl

theorem in0_w2 (c : Dev nD) : V3 m ρ c main_arg7 = m ((c.tc : Thread nD τ).loc main_arg7) := by
  show StableHlo.after hostOps0_2 (StableHlo.after hostOps0_1 (StableHlo.after hostOps0 (W0 m ρ c))) (Proc.devRef .tc main_arg7) = _
  after_results

theorem in0_b2 (c : Dev nD) : V3 m ρ c main_v8
    = shapeCast S1x512 (m ((c.tc : Thread nD τ).loc main_arg8)) shapeCasts_S512_S1x512 := by
  show StableHlo.after hostOps0_2 (StableHlo.after hostOps0_1 (StableHlo.after hostOps0 (W0 m ρ c))) (Proc.devRef .tc main_v8) = _
  after_results
  rfl

/-! ## Rows of a matrix band, and a vector viewed as a row -/

/-- Row q of the first nine rows of the 521-row matrix is its row q. -/
theorem band_lo (W : S521x512.Idx → EReal) (q : Fin 9) (k : Fin 512) :
    extractStridedSlice S9x512 ![0, 0] W slices_S521x512_S9x512_0_0 (ix2 q k) = W (ix2 (lo9 q) k) :=
  extractStridedSlice_apply _ W _ (ix2 q k) (ix2 (lo9 q) k) fun a => by
    match a with
    | ⟨0, _⟩ => show q.val = 0 + q.val; omega
    | ⟨1, _⟩ => show k.val = 0 + k.val; omega

/-- Row q of the other 512 rows is its row 9 + q. -/
theorem band_hi (W : S521x512.Idx → EReal) (q : Fin 512) (k : Fin 512) :
    extractStridedSlice S512x512 ![9, 0] W slices_S521x512_S512x512_9_0 (ix2 q k) = W (ix2 (hi512 q) k) :=
  extractStridedSlice_apply _ W _ (ix2 q k) (ix2 (hi512 q) k) fun a => by
    match a with
    | ⟨0, _⟩ => show 9 + q.val = 9 + q.val; rfl
    | ⟨1, _⟩ => show k.val = 0 + k.val; omega

/-- A 512-vector viewed as a 1 × 512 row reads, at (0, k), the vector's entry k. -/
theorem as_row (b : S512.Idx → EReal) (k : Fin 512) :
    shapeCast S1x512 b shapeCasts_S512_S1x512 (ix2 (0 : Fin 1) k) = b (ix1 k) :=
  shapeCast_apply b _ _ _ (by
    rw [Shape.rowMajor_val_two, Shape.rowMajor_val_one]
    show k.val = 0 * 512 + k.val
    omega)

/-! ## The messages -/

/-- The edge perceptron over the two row bands and the two bias rows is the perceptron over the matrix and the bias
    vectors whole. -/
theorem bands_whole (xe : S150000x9.Idx → EReal) (ea : S150000x512.Idx → EReal) (W : S521x512.Idx → EReal)
    (b1 : S512.Idx → EReal) (w2 : S512x512.Idx → EReal) (b2 : S512.Idx → EReal) :
    Cert.Mlp1Value.G xe ea (extractStridedSlice S9x512 ![0, 0] W slices_S521x512_S9x512_0_0)
        (extractStridedSlice S512x512 ![9, 0] W slices_S521x512_S512x512_9_0)
        (shapeCast S1x512 b1 shapeCasts_S512_S1x512) w2 (shapeCast S1x512 b2 shapeCasts_S512_S1x512)
      = H xe ea W b1 w2 b2 := by
  funext i
  obtain ⟨e, j, rfl⟩ : ∃ (e : Fin 150000) (j : Fin 512), i = ix2 e j := ⟨i 0, i 1, eq_ix2 i⟩
  unfold Cert.Mlp1Value.G H
  simp only [band_lo, band_hi, as_row]

/-- After the first region the message array is the edge perceptron of the plainly gathered source features. -/
theorem messages (h : Cert.Pre_KernelIdeal m) (c : Dev nD) :
    W4 m ρ c (Proc.devRef .tc main_v9)
      = H (Host.gather gather_S50000x9_S150000x1_S150000x9_1_0_n_n_0_1_19 (m ((c.tc : Thread nD τ).loc main_arg0)) (wrapCol (colOf m c)))
          (m ((c.tc : Thread nD τ).loc main_arg2)) (m ((c.tc : Thread nD τ).loc main_arg5))
          (m ((c.tc : Thread nD τ).loc main_arg6)) (m ((c.tc : Thread nD τ).loc main_arg7))
          (m ((c.tc : Thread nD τ).loc main_arg8)) := by
  refine (W4_arr m ρ c 7).trans ((Cert.Mlp1Value.final (V3 m ρ) c).trans ?_)
  rw [in0_xe, in0_ea, in0_wx, in0_we, in0_b1, in0_w2, in0_b2, takeRows_eq _ _ (pre_col m h c)]
  exact bands_whole _ _ _ _ _ _

/-! ## When the first region is left -/

/-- The arguments the second half reads are still as launched: neither a host operation nor the first region writes them. -/
theorem W4_arg0 (c : Dev nD) : W4 m ρ c (Proc.devRef .tc main_arg0) = m ((c.tc : Thread nD τ).loc main_arg0) := by
  rw [W4_of_ne m ρ c main_arg0 (by decide)]
  show StableHlo.after hostOps0_2 (StableHlo.after hostOps0_1 (StableHlo.after hostOps0 (W0 m ρ c))) (Proc.devRef .tc main_arg0) = _
  after_results

theorem W4_arg3 (c : Dev nD) : W4 m ρ c (Proc.devRef .tc main_arg3) = m ((c.tc : Thread nD τ).loc main_arg3) := by
  rw [W4_of_ne m ρ c main_arg3 (by decide)]
  show StableHlo.after hostOps0_2 (StableHlo.after hostOps0_1 (StableHlo.after hostOps0 (W0 m ρ c))) (Proc.devRef .tc main_arg3) = _
  after_results

theorem W4_arg4 (c : Dev nD) : W4 m ρ c (Proc.devRef .tc main_arg4) = m ((c.tc : Thread nD τ).loc main_arg4) := by
  rw [W4_of_ne m ρ c main_arg4 (by decide)]
  show StableHlo.after hostOps0_2 (StableHlo.after hostOps0_1 (StableHlo.after hostOps0 (W0 m ρ c))) (Proc.devRef .tc main_arg4) = _
  after_results

theorem W4_arg9 (c : Dev nD) : W4 m ρ c (Proc.devRef .tc main_arg9) = m ((c.tc : Thread nD τ).loc main_arg9) := by
  rw [W4_of_ne m ρ c main_arg9 (by decide)]
  show StableHlo.after hostOps0_2 (StableHlo.after hostOps0_1 (StableHlo.after hostOps0 (W0 m ρ c))) (Proc.devRef .tc main_arg9) = _
  after_results

theorem W4_arg10 (c : Dev nD) : W4 m ρ c (Proc.devRef .tc main_arg10) = m ((c.tc : Thread nD τ).loc main_arg10) := by
  rw [W4_of_ne m ρ c main_arg10 (by decide)]
  show StableHlo.after hostOps0_2 (StableHlo.after hostOps0_1 (StableHlo.after hostOps0 (W0 m ρ c))) (Proc.devRef .tc main_arg10) = _
  after_results

theorem W4_arg11 (c : Dev nD) : W4 m ρ c (Proc.devRef .tc main_arg11) = m ((c.tc : Thread nD τ).loc main_arg11) := by
  rw [W4_of_ne m ρ c main_arg11 (by decide)]
  show StableHlo.after hostOps0_2 (StableHlo.after hostOps0_1 (StableHlo.after hostOps0 (W0 m ρ c))) (Proc.devRef .tc main_arg11) = _
  after_results

theorem W4_arg12 (c : Dev nD) : W4 m ρ c (Proc.devRef .tc main_arg12) = m ((c.tc : Thread nD τ).loc main_arg12) := by
  rw [W4_of_ne m ρ c main_arg12 (by decide)]
  show StableHlo.after hostOps0_2 (StableHlo.after hostOps0_1 (StableHlo.after hostOps0 (W0 m ρ c))) (Proc.devRef .tc main_arg12) = _
  after_results

/-- So is the destination row of the edge list. -/
theorem W4_row (c : Dev nD) : W4 m ρ c (Proc.devRef .tc main_v1) = rowOf m c := by
  rw [W4_of_ne m ρ c main_v1 (by decide)]
  show StableHlo.after hostOps0_2 (StableHlo.after hostOps0_1 (StableHlo.after hostOps0 (W0 m ρ c))) (Proc.devRef .tc main_v1) = _
  after_results
  rfl

/-! ## What the second region finds -/

theorem in1_x (c : Dev nD) : V7 m ρ c main_arg0 = (m ((c.tc : Thread nD τ).loc main_arg0)) := by
  show StableHlo.after hostOps1_2 (StableHlo.after hostOps1_1 (StableHlo.after hostOps1 (W4 m ρ c))) (Proc.devRef .tc main_arg0) = _
  after_results
  exact W4_arg0 m ρ c

/-- The message sums: the messages scattered and added at their destination rows, from zero. -/
theorem in1_sums (c : Dev nD) : V7 m ρ c main_v13
    = Host.scatterAdd scatter_S50000x512_S150000x1_S150000x512_1_0_0_1
        (broadcastInDim S50000x512 ![] bcast_S_S50000x512 (constant (F := Ideal) S_ .f32 0x00000000#32))
        (broadcastInDim S150000x1 ![0] bcast_S150000_S150000x1_0 (rowOf m c))
        (extf .f32 (W4 m ρ c (Proc.devRef .tc main_v9)) bitsLt_bf16_f32) := by
  show StableHlo.after hostOps1_2 (StableHlo.after hostOps1_1 (StableHlo.after hostOps1 (W4 m ρ c))) (Proc.devRef .tc main_v13) = _
  after_results
  rw [W4_row m ρ c]

/-- The message counts, as a column: ones scattered and added at the destination rows, from zero. -/
theorem in1_cnt (c : Dev nD) : V7 m ρ c main_v18
    = shapeCast S50000x1 (Host.scatterAdd scatter_S50000_S150000x1_S150000_n_0_0_1
        (broadcastInDim S50000 ![] bcast_S_S50000 (constant (F := Ideal) S_ .f32 0x00000000#32))
        (broadcastInDim S150000x1 ![0] bcast_S150000_S150000x1_0 (rowOf m c))
        (broadcastInDim S150000 ![] bcast_S_S150000 (constant (F := Ideal) S_ .f32 0x3F800000#32))) shapeCasts_S50000_S50000x1 := by
  show StableHlo.after hostOps1_2 (StableHlo.after hostOps1_1 (StableHlo.after hostOps1 (W4 m ρ c))) (Proc.devRef .tc main_v18) = _
  after_results
  rw [W4_row m ρ c]
  rfl

-- the gathered graph features are the last of the twenty-three operations of their stretch
set_option maxHeartbeats 1600000 in
theorem in1_ub (c : Dev nD) : V7 m ρ c main_v19 = takeU (m ((c.tc : Thread nD τ).loc main_arg3)) (m ((c.tc : Thread nD τ).loc main_arg4)) := by
  show StableHlo.after hostOps1_2 (StableHlo.after hostOps1_1 (StableHlo.after hostOps1 (W4 m ρ c))) (Proc.devRef .tc main_v19) = _
  after_results
  simp only [TRef.toBuf, TRef.ofBuf, cast_eq]
  rw [W4_arg3 m ρ c, W4_arg4 m ρ c]

theorem in1_wx (c : Dev nD) : V7 m ρ c main_v20
    = extractStridedSlice S9x512 ![0, 0] (m ((c.tc : Thread nD τ).loc main_arg9)) slices_S537x512_S9x512_0_0 := by
  show StableHlo.after hostOps1_2 (StableHlo.after hostOps1_1 (StableHlo.after hostOps1 (W4 m ρ c))) (Proc.devRef .tc main_v20) = _
  after_results
  rw [W4_arg9 m ρ c]

theorem in1_wa (c : Dev nD) : V7 m ρ c main_v21
    = extractStridedSlice S512x512 ![9, 0] (m ((c.tc : Thread nD τ).loc main_arg9)) slices_S537x512_S512x512_9_0 := by
  show StableHlo.after hostOps1_2 (StableHlo.after hostOps1_1 (StableHlo.after hostOps1 (W4 m ρ c))) (Proc.devRef .tc main_v21) = _
  after_results
  rw [W4_arg9 m ρ c]

theorem in1_wu (c : Dev nD) : V7 m ρ c main_v22
    = extractStridedSlice S16x512 ![521, 0] (m ((c.tc : Thread nD τ).loc main_arg9)) slices_S537x512_S16x512_521_0 := by
  show StableHlo.after hostOps1_2 (StableHlo.after hostOps1_1 (StableHlo.after hostOps1 (W4 m ρ c))) (Proc.devRef .tc main_v22) = _
  after_results
  rw [W4_arg9 m ρ c]

theorem in1_b1 (c : Dev nD) : V7 m ρ c main_v23 = shapeCast S1x512 (m ((c.tc : Thread nD τ).loc main_arg10)) shapeCasts_S512_S1x512 := by
  show StableHlo.after hostOps1_2 (StableHlo.after hostOps1_1 (StableHlo.after hostOps1 (W4 m ρ c))) (Proc.devRef .tc main_v23) = _
  after_results
  rw [W4_arg10 m ρ c]
  rfl

theorem in1_w2 (c : Dev nD) : V7 m ρ c main_arg11 = (m ((c.tc : Thread nD τ).loc main_arg11)) := by
  show StableHlo.after hostOps1_2 (StableHlo.after hostOps1_1 (StableHlo.after hostOps1 (W4 m ρ c))) (Proc.devRef .tc main_arg11) = _
  after_results
  exact W4_arg11 m ρ c

theorem in1_b2 (c : Dev nD) : V7 m ρ c main_v24 = shapeCast S1x1 (m ((c.tc : Thread nD τ).loc main_arg12)) shapeCasts_S1_S1x1 := by
  show StableHlo.after hostOps1_2 (StableHlo.after hostOps1_1 (StableHlo.after hostOps1 (W4 m ρ c))) (Proc.devRef .tc main_v24) = _
  after_results
  rw [W4_arg12 m ρ c]
  rfl

/-! ## The node perceptron over the matrix whole -/

/-- Rows of the three bands of the 537-row matrix. -/
theorem band_a (W : S537x512.Idx → EReal) (q : Fin 9) (k : Fin 512) :
    extractStridedSlice S9x512 ![0, 0] W slices_S537x512_S9x512_0_0 (ix2 q k) = W (ix2 (a9 q) k) :=
  extractStridedSlice_apply _ W _ (ix2 q k) (ix2 (a9 q) k) fun a => by
    match a with
    | ⟨0, _⟩ => show q.val = 0 + q.val; omega
    | ⟨1, _⟩ => show k.val = 0 + k.val; omega
theorem band_b (W : S537x512.Idx → EReal) (q : Fin 512) (k : Fin 512) :
    extractStridedSlice S512x512 ![9, 0] W slices_S537x512_S512x512_9_0 (ix2 q k) = W (ix2 (b512 q) k) :=
  extractStridedSlice_apply _ W _ (ix2 q k) (ix2 (b512 q) k) fun a => by
    match a with
    | ⟨0, _⟩ => show 9 + q.val = 9 + q.val; rfl
    | ⟨1, _⟩ => show k.val = 0 + k.val; omega
theorem band_c (W : S537x512.Idx → EReal) (q : Fin 16) (k : Fin 512) :
    extractStridedSlice S16x512 ![521, 0] W slices_S537x512_S16x512_521_0 (ix2 q k) = W (ix2 (c16 q) k) :=
  extractStridedSlice_apply _ W _ (ix2 q k) (ix2 (c16 q) k) fun a => by
    match a with
    | ⟨0, _⟩ => show 521 + q.val = 521 + q.val; rfl
    | ⟨1, _⟩ => show k.val = 0 + k.val; omega

/-- The one-entry bias viewed as a 1 × 1 array. -/
theorem as_one (b : S1.Idx → EReal) :
    shapeCast S1x1 b shapeCasts_S1_S1x1 (ix2 (0 : Fin 1) (0 : Fin 1)) = b (ix1 (0 : Fin 1)) :=
  shapeCast_apply b _ _ _ (by
    rw [Shape.rowMajor_val_two, Shape.rowMajor_val_one]
    show (0 : ℕ) = 0 * 1 + 0
    rfl)

/-- The counts viewed as a column read, at (n, 0), the count of node n. -/
theorem as_col (cnt : S50000.Idx → EReal) (n : Fin 50000) :
    shapeCast S50000x1 cnt shapeCasts_S50000_S50000x1 (ix2 n (0 : Fin 1)) = cnt (ix1 n) :=
  Cert.LibColumn.shapeCast_a_a1_apply cnt _ n 0

/-- The node perceptron over the three row bands, the bias rows and the counts' column is the perceptron over the
    matrix, the bias vectors and the counts whole. -/
theorem node_whole (x : S50000x9.Idx → EReal) (s : S50000x512.Idx → EReal) (cnt : S50000.Idx → EReal)
    (g : S50000x16.Idx → EReal) (W : S537x512.Idx → EReal) (b1 : S512.Idx → EReal) (w2 : S512x1.Idx → EReal)
    (b2 : S1.Idx → EReal) :
    Cert.Mlp2Value.G x s (shapeCast S50000x1 cnt shapeCasts_S50000_S50000x1) g
        (extractStridedSlice S9x512 ![0, 0] W slices_S537x512_S9x512_0_0)
        (extractStridedSlice S512x512 ![9, 0] W slices_S537x512_S512x512_9_0)
        (extractStridedSlice S16x512 ![521, 0] W slices_S537x512_S16x512_521_0)
        (shapeCast S1x512 b1 shapeCasts_S512_S1x512) w2 (shapeCast S1x1 b2 shapeCasts_S1_S1x1)
      = OUT x s cnt g W b1 w2 b2 := by
  funext i
  obtain ⟨n, u, rfl⟩ : ∃ (n : Fin 50000) (u : Fin 1), i = ix2 n u := ⟨i 0, i 1, eq_ix2 i⟩
  obtain rfl : u = 0 := Subsingleton.elim _ _
  unfold Cert.Mlp2Value.G OUT
  simp only [band_a, band_b, band_c, as_row, as_one, as_col]

/-! ## The result -/

/-- The plain gathers and the two scatter-adds are the reference's own stages of the same arguments. -/
theorem xe_stage (c : Dev nD) :
    Host.gather gather_S50000x9_S150000x1_S150000x9_1_0_n_n_0_1_19 (m ((c.tc : Thread nD τ).loc main_arg0)) (wrapCol (colOf m c))
      = Cert.ReferenceIdeal.Read.val_main_v10 (F := Ideal) (m ((c.tc : Thread nD τ).loc main_arg0)) (m ((c.tc : Thread nD τ).loc main_arg1)) := rfl
theorem ub_stage (c : Dev nD) :
    Host.gather gather_S64x16_S50000x1_S50000x16_1_0_n_n_0_1_116 (m ((c.tc : Thread nD τ).loc main_arg3)) (wrapBatch (m ((c.tc : Thread nD τ).loc main_arg4)))
      = Cert.ReferenceIdeal.Read.val_main_v39 (F := Ideal) (m ((c.tc : Thread nD τ).loc main_arg3)) (m ((c.tc : Thread nD τ).loc main_arg4)) := rfl
theorem cnt_stage (c : Dev nD) :
    Host.scatterAdd scatter_S50000_S150000x1_S150000_n_0_0_1
        (broadcastInDim S50000 ![] bcast_S_S50000 (constant (F := Ideal) S_ .f32 0x00000000#32))
        (broadcastInDim S150000x1 ![0] bcast_S150000_S150000x1_0 (rowOf m c))
        (broadcastInDim S150000 ![] bcast_S_S150000 (constant (F := Ideal) S_ .f32 0x3F800000#32))
      = Cert.ReferenceIdeal.Read.val_main_v27 (F := Ideal) (m ((c.tc : Thread nD τ).loc main_arg1)) := rfl
theorem sums_stage (c : Dev nD) :
    Host.scatterAdd scatter_S50000x512_S150000x1_S150000x512_1_0_0_1
        (broadcastInDim S50000x512 ![] bcast_S_S50000x512 (constant (F := Ideal) S_ .f32 0x00000000#32))
        (broadcastInDim S150000x1 ![0] bcast_S150000_S150000x1_0 (rowOf m c))
        (extf .f32 (H (Cert.ReferenceIdeal.Read.val_main_v10 (F := Ideal) (m ((c.tc : Thread nD τ).loc main_arg0)) (m ((c.tc : Thread nD τ).loc main_arg1)))
          (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8))) bitsLt_bf16_f32)
      = Cert.ReferenceIdeal.Read.val_main_v23 (F := Ideal) (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) := by
  unfold Cert.ReferenceIdeal.Read.val_main_v23
  rw [Cert.RefRead.ref_h]
  rfl

-- ten entry arrays are rewritten, then the stages named, in this one declaration
set_option maxHeartbeats 3200000 in
/-- After the run the result buffer holds the reference's result term of the same thirteen arguments. -/
theorem result (h : Cert.Pre_KernelIdeal m) (c : Dev nD) :
    W8 m ρ c (Proc.devRef .tc main_v25)
      = Cert.ReferenceIdeal.Read.val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  refine (W8_arr m ρ c 10).trans ((Cert.Mlp2Value.final (V7 m ρ) c).trans ?_)
  rw [in1_x, in1_sums, in1_cnt, in1_ub, in1_wx, in1_wa, in1_wu, in1_b1, in1_w2, in1_b2]
  rw [messages m ρ h c, takeU_eq _ _ (pre_batch m h c)]
  rw [xe_stage m c, ub_stage m c, cnt_stage m c, sums_stage m c]
  refine (node_whole _ _ _ _ _ _ _ _).trans ?_
  exact (Cert.RefRead.ref_out _ _ _ _ _ _ _ _ _ _ _ _ _).symm

end Cert.KernelValue

end
-- ==== Proof.lean ====
/-
  A two-stage graph network layer, as a Pallas kernel pipeline and as plain jnp, compute one function on the extended
  reals.

  Per edge: a two-layer perceptron (512 hidden units, ReLU) of the source node's nine features beside the edge's 512
  attributes. Per node: the mean of the messages that reach it (their sum over the larger of their count and one), then
  a second perceptron of the node's features, that mean and its graph's sixteen features, down to one number.
  The reference concatenates the inputs of each first layer and multiplies by the whole weight matrix; the kernel
  multiplies each piece by its own band of rows and adds the products. A sum over 521 = 9 + 512 (or 537 = 9 + 512 + 16)
  terms is the sum of the sums over the pieces, in any additive commutative monoid: no finiteness is used. The kernel's
  changes of float format are the identity on the extended reals, its matrix products into a zero accumulator are the
  plain sums the host's are, and it divides the message sums by the counts inside the second kernel where the
  reference divides on the host: the same quotient.
  The kernel gathers rows with a masked gather that yields a not-a-number pattern at an index outside the table, the
  reference with a clamping one: they agree where every index is inside, and the precondition says so of the edges'
  source nodes and the nodes' graphs (an index i with -N ≤ i < N, read from the end when negative, is inside a table
  of N rows). Under it both runs end with the result at the reference's own result term of the thirteen arguments.
-/
import proofs.«414186_j67791763800206_2_alg».proof.Defs
import proofs.«414186_j67791763800206_2_alg».proof.Proof.Gen.Kernel
import proofs.«414186_j67791763800206_2_alg».proof.Proof.Gen.Kernel.Skeleton
import proofs.«414186_j67791763800206_2_alg».proof.Proof.Gen.Kernel.Launch
import proofs.«414186_j67791763800206_2_alg».proof.Proof.Gen.Kernel.Points
import proofs.«414186_j67791763800206_2_alg».proof.Proof.Gen.Kernel.Frame
import proofs.«414186_j67791763800206_2_alg».proof.Proof.Gen.KernelIdeal
import proofs.«414186_j67791763800206_2_alg».proof.Proof.Gen.KernelIdeal.Skeleton
import proofs.«414186_j67791763800206_2_alg».proof.Proof.Gen.KernelIdeal.Launch
import proofs.«414186_j67791763800206_2_alg».proof.Proof.Gen.KernelIdeal.Points
import proofs.«414186_j67791763800206_2_alg».proof.Proof.Gen.KernelIdeal.Frame
import proofs.«414186_j67791763800206_2_alg».proof.Proof.Gen.ReferenceIdeal
import proofs.«414186_j67791763800206_2_alg».proof.Proof.Gen.ReferenceIdeal.Run
import proofs.«414186_j67791763800206_2_alg».proof.Proof.Gen.ReferenceIdeal.Read
import proofs.«414186_j67791763800206_2_alg».proof.Proof.Gen.Pre_finite_inputs
import proofs.«414186_j67791763800206_2_alg».proof.Proof.KernelValue
import Idealize.ShloMosaic.Adequacy
import Idealize.ShloMosaic.Init

set_option maxRecDepth 16384

noncomputable section

namespace Cert.Proof

open Idealize.ShloMosaic Idealize.SL.Sem

/-- The word-level kernel runs, and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is host operations only: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing: there is no conjunct to prove. -/
theorem preserves : Cert.preserves_Kernel_KernelIdeal := trivial

/-- From memories that agree on the thirteen arguments both programs end with the result at the reference's result term
    of the kernel's arguments: the kernel's run by what its two regions and the host operations between them compute,
    the reference's by its own run with the arguments' agreement rewritten. -/
theorem algebraic : Cert.algebraic_KernelIdeal_ReferenceIdeal := by
  intro m ρ m' ρ' hpre hagree
  refine ⟨fun c => Cert.ReferenceIdeal.Read.val_main_v49 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelValue.result m ρ hpre c), (h c).2⟩)
      (Cert.KernelIdeal.RunValue.run (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12⟩ := hagree c
    rw [Cert.ReferenceIdeal.Read.val_main_v49_eq, h0, h1, h2, h3, h4, h5, h6, h7, h8, h9, h10, h11, h12]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
